-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x256 : Shape := ⟨2, ![50000, 256]⟩
abbrev S20000x256 : Shape := ⟨2, ![20000, 256]⟩
abbrev S256x64 : Shape := ⟨2, ![256, 64]⟩
abbrev S1000000 : Shape := ⟨1, ![1000000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S20000x256 : S_.BroadcastsInDim S20000x256 (![] : Fin 0 → Fin S20000x256.rank)
  reducesTo_S20000x256_S_d0_1 : S20000x256.ReducesTo [0, 1] S_
  bcast_S_S256x64 : S_.BroadcastsInDim S256x64 (![] : Fin 0 → Fin S256x64.rank)
  reducesTo_S256x64_S_d0_1 : S256x64.ReducesTo [0, 1] S_
  bcast_S_S1000000 : S_.BroadcastsInDim S1000000 (![] : Fin 0 → Fin S1000000.rank)
  reducesTo_S1000000_S_d0 : S1000000.ReducesTo [0] S_

variable [Facts]

def fn_part5 {F : FTy → Type} [FloatOps F] (main_v79 : IVec S_ 1) (main_v84 : IVec S1000000 32) : IVec S_ 1 :=
  let main_c_33 : IVec S_ 32 := constantI S_ 32 0#32
  let main_v85 : IVec S1000000 32 := broadcastInDim S1000000 ![] bcast_S_S1000000 main_c_33
  let main_v86 : IVec S1000000 1 := cmpi .sge main_v84 main_v85
  let main_c_34 : IVec S_ 32 := constantI S_ 32 49999#32
  let main_v87 : IVec S1000000 32 := broadcastInDim S1000000 ![] bcast_S_S1000000 main_c_34
  let main_v88 : IVec S1000000 1 := cmpi .sle main_v84 main_v87
  let main_v89 : IVec S1000000 1 := andi main_v86 main_v88
  let main_c_35 : IVec S_ 1 := constantI S_ 1 1#1
  let main_v90 : IVec S_ 1 := (fun x v => Host.reduce IntOp.andi x v reducesTo_S1000000_S_d0 h_S_) main_v89 main_c_35
  let main_v91 : IVec S_ 1 := andi main_v79 main_v90
  main_v91

def fn_part4 {F : FTy → Type} [FloatOps F] (main_arg11 : IVec S1000000 32) (main_arg12 : IVec S1000000 32) (main_v67 : IVec S_ 1) : IVec S_ 1 :=
  let main_c_26 : IVec S_ 32 := constantI S_ 32 0#32
  let main_v68 : IVec S1000000 32 := broadcastInDim S1000000 ![] bcast_S_S1000000 main_c_26
  let main_v69 : IVec S1000000 1 := cmpi .slt main_arg11 main_v68
  let main_c_27 : IVec S_ 32 := constantI S_ 32 50000#32
  let main_v70 : IVec S1000000 32 := broadcastInDim S1000000 ![] bcast_S_S1000000 main_c_27
  let main_v71 : IVec S1000000 32 := addi main_arg11 main_v70
  let main_v72 : IVec S1000000 32 := select main_v69 main_v71 main_arg11
  let main_c_28 : IVec S_ 32 := constantI S_ 32 0#32
  let main_v73 : IVec S1000000 32 := broadcastInDim S1000000 ![] bcast_S_S1000000 main_c_28
  let main_v74 : IVec S1000000 1 := cmpi .sge main_v72 main_v73
  let main_c_29 : IVec S_ 32 := constantI S_ 32 49999#32
  let main_v75 : IVec S1000000 32 := broadcastInDim S1000000 ![] bcast_S_S1000000 main_c_29
  let main_v76 : IVec S1000000 1 := cmpi .sle main_v72 main_v75
  let main_v77 : IVec S1000000 1 := andi main_v74 main_v76
  let main_c_30 : IVec S_ 1 := constantI S_ 1 1#1
  let main_v78 : IVec S_ 1 := (fun x v => Host.reduce IntOp.andi x v reducesTo_S1000000_S_d0 h_S_) main_v77 main_c_30
  let main_v79 : IVec S_ 1 := andi main_v67 main_v78
  let main_c_31 : IVec S_ 32 := constantI S_ 32 0#32
  let main_v80 : IVec S1000000 32 := broadcastInDim S1000000 ![] bcast_S_S1000000 main_c_31
  let main_v81 : IVec S1000000 1 := cmpi .slt main_arg12 main_v80
  let main_c_32 : IVec S_ 32 := constantI S_ 32 50000#32
  let main_v82 : IVec S1000000 32 := broadcastInDim S1000000 ![] bcast_S_S1000000 main_c_32
  let main_v83 : IVec S1000000 32 := addi main_arg12 main_v82
  let main_v84 : IVec S1000000 32 := select main_v81 main_v83 main_arg12
  fn_part5 (F := F) main_v79 main_v84

def fn_part3 {F : FTy → Type} [FloatOps F] (main_arg10 : IVec S1000000 32) (main_arg11 : IVec S1000000 32) (main_arg12 : IVec S1000000 32) (main_v43 : IVec S_ 1) (main_v48 : IVec S1000000 32) (main_v50 : IVec S1000000 1) : IVec S_ 1 :=
  let main_c_19 : IVec S_ 32 := constantI S_ 32 99999#32
  let main_v51 : IVec S1000000 32 := broadcastInDim S1000000 ![] bcast_S_S1000000 main_c_19
  let main_v52 : IVec S1000000 1 := cmpi .sle main_v48 main_v51
  let main_v53 : IVec S1000000 1 := andi main_v50 main_v52
  let main_c_20 : IVec S_ 1 := constantI S_ 1 1#1
  let main_v54 : IVec S_ 1 := (fun x v => Host.reduce IntOp.andi x v reducesTo_S1000000_S_d0 h_S_) main_v53 main_c_20
  let main_v55 : IVec S_ 1 := andi main_v43 main_v54
  let main_c_21 : IVec S_ 32 := constantI S_ 32 0#32
  let main_v56 : IVec S1000000 32 := broadcastInDim S1000000 ![] bcast_S_S1000000 main_c_21
  let main_v57 : IVec S1000000 1 := cmpi .slt main_arg10 main_v56
  let main_c_22 : IVec S_ 32 := constantI S_ 32 100000#32
  let main_v58 : IVec S1000000 32 := broadcastInDim S1000000 ![] bcast_S_S1000000 main_c_22
  let main_v59 : IVec S1000000 32 := addi main_arg10 main_v58
  let main_v60 : IVec S1000000 32 := select main_v57 main_v59 main_arg10
  let main_c_23 : IVec S_ 32 := constantI S_ 32 0#32
  let main_v61 : IVec S1000000 32 := broadcastInDim S1000000 ![] bcast_S_S1000000 main_c_23
  let main_v62 : IVec S1000000 1 := cmpi .sge main_v60 main_v61
  let main_c_24 : IVec S_ 32 := constantI S_ 32 99999#32
  let main_v63 : IVec S1000000 32 := broadcastInDim S1000000 ![] bcast_S_S1000000 main_c_24
  let main_v64 : IVec S1000000 1 := cmpi .sle main_v60 main_v63
  let main_v65 : IVec S1000000 1 := andi main_v62 main_v64
  let main_c_25 : IVec S_ 1 := constantI S_ 1 1#1
  let main_v66 : IVec S_ 1 := (fun x v => Host.reduce IntOp.andi x v reducesTo_S1000000_S_d0 h_S_) main_v65 main_c_25
  let main_v67 : IVec S_ 1 := andi main_v55 main_v66
  fn_part4 (F := F) main_arg11 main_arg12 main_v67

def fn_part2 {F : FTy → Type} [FloatOps F] (main_arg7 : FVec F S256x64 .f32) (main_arg8 : FVec F S256x64 .f32) (main_arg9 : IVec S1000000 32) (main_arg10 : IVec S1000000 32) (main_arg11 : IVec S1000000 32) (main_arg12 : IVec S1000000 32) (main_v33 : IVec S_ 1) : IVec S_ 1 :=
  let main_v34 : FVec F S256x64 .f32 := Host.absf main_arg7
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg8
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_c_16 : IVec S_ 32 := constantI S_ 32 0#32
  let main_v44 : IVec S1000000 32 := broadcastInDim S1000000 ![] bcast_S_S1000000 main_c_16
  let main_v45 : IVec S1000000 1 := cmpi .slt main_arg9 main_v44
  let main_c_17 : IVec S_ 32 := constantI S_ 32 100000#32
  let main_v46 : IVec S1000000 32 := broadcastInDim S1000000 ![] bcast_S_S1000000 main_c_17
  let main_v47 : IVec S1000000 32 := addi main_arg9 main_v46
  let main_v48 : IVec S1000000 32 := select main_v45 main_v47 main_arg9
  let main_c_18 : IVec S_ 32 := constantI S_ 32 0#32
  let main_v49 : IVec S1000000 32 := broadcastInDim S1000000 ![] bcast_S_S1000000 main_c_18
  let main_v50 : IVec S1000000 1 := cmpi .sge main_v48 main_v49
  fn_part3 (F := F) main_arg10 main_arg11 main_arg12 main_v43 main_v48 main_v50

def fn_part1 {F : FTy → Type} [FloatOps F] (main_arg4 : FVec F S256x64 .f32) (main_arg5 : FVec F S256x64 .f32) (main_arg6 : FVec F S256x64 .f32) (main_arg7 : FVec F S256x64 .f32) (main_arg8 : FVec F S256x64 .f32) (main_arg9 : IVec S1000000 32) (main_arg10 : IVec S1000000 32) (main_arg11 : IVec S1000000 32) (main_arg12 : IVec S1000000 32) (main_v13 : IVec S_ 1) (main_v16 : IVec S20000x256 1) : IVec S_ 1 :=
  let main_c_5 : IVec S_ 1 := constantI S_ 1 1#1
  let main_v17 : IVec S_ 1 := (fun x v => Host.reduce IntOp.andi x v reducesTo_S20000x256_S_d0_1 h_S_) main_v16 main_c_5
  let main_v18 : IVec S_ 1 := andi main_v13 main_v17
  let main_v19 : FVec F S256x64 .f32 := Host.absf main_arg4
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg5
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S100000x256 .f32) (main_arg1 : FVec F S50000x256 .f32) (main_arg2 : FVec F S50000x256 .f32) (main_arg3 : FVec F S20000x256 .f32) (main_arg4 : FVec F S256x64 .f32) (main_arg5 : FVec F S256x64 .f32) (main_arg6 : FVec F S256x64 .f32) (main_arg7 : FVec F S256x64 .f32) (main_arg8 : FVec F S256x64 .f32) (main_arg9 : IVec S1000000 32) (main_arg10 : IVec S1000000 32) (main_arg11 : IVec S1000000 32) (main_arg12 : IVec S1000000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S20000x256 .f32 := Host.absf main_arg3
  let main_cst_4 : FVec F S_ .f32 := constant S_ .f32 0x7F800000#32
  let main_v15 : FVec F S20000x256 .f32 := broadcastInDim S20000x256 ![] bcast_S_S20000x256 main_cst_4
  let main_v16 : IVec S20000x256 1 := cmpf .olt main_v14 main_v15
  fn_part1 (F := F) main_arg4 main_arg5 main_arg6 main_arg7 main_arg8 main_arg9 main_arg10 main_arg11 main_arg12 main_v13 main_v16
-- ==== Kernel.lean ====
abbrev S100000x256 : Shape := ⟨2, ![100000, 256]⟩
abbrev S50000x256 : Shape := ⟨2, ![50000, 256]⟩
abbrev S20000x256 : Shape := ⟨2, ![20000, 256]⟩
abbrev S256x64 : Shape := ⟨2, ![256, 64]⟩
abbrev S1000000 : Shape := ⟨1, ![1000000]⟩
abbrev S100000x64 : Shape := ⟨2, ![100000, 64]⟩
abbrev S5000x256 : Shape := ⟨2, ![5000, 256]⟩
abbrev S5000x64 : Shape := ⟨2, ![5000, 64]⟩
abbrev S50000x64 : Shape := ⟨2, ![50000, 64]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x64 : Shape := ⟨2, ![1000000, 64]⟩
abbrev S8000x64 : Shape := ⟨2, ![8000, 64]⟩
abbrev S8000x256 : Shape := ⟨2, ![8000, 256]⟩

abbrev nBuf : Space → Nat
  | .hbm => 109
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S50000x256, .f32⟩
  | .hbm, ⟨3, _⟩ => ⟨S20000x256, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S100000x64, .f32⟩
  | .hbm, ⟨14, _⟩ => ⟨S50000x64, .f32⟩
  | .hbm, ⟨15, _⟩ => ⟨S50000x64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1, .i32⟩
  | .hbm, ⟨25, _⟩ => ⟨S_, .i32⟩
  | .hbm, ⟨26, _⟩ => ⟨S1000000x1, .i32⟩
  | .hbm, ⟨27, _⟩ => ⟨S1000000x1, .i1⟩
  | .hbm, ⟨28, _⟩ => ⟨S1x1, .i32⟩
  | .hbm, ⟨29, _⟩ => ⟨S1000000x1, .i32⟩
  | .hbm, ⟨30, _⟩ => ⟨S1000000x1, .i1⟩
  | .hbm, ⟨31, _⟩ => ⟨S1000000x1, .i1⟩
  | .hbm, ⟨32, _⟩ => ⟨S_, .i1⟩
  | .hbm, ⟨33, _⟩ => ⟨S1000000, .i1⟩
  | .hbm, ⟨34, _⟩ => ⟨S1000000x64, .f32⟩
  | .hbm, ⟨35, _⟩ => ⟨S1000000x64, .i1⟩
  | .hbm, ⟨36, _⟩ => ⟨S_, .f32⟩
  | .hbm, ⟨37, _⟩ => ⟨S1000000x64, .f32⟩
  | .hbm, ⟨38, _⟩ => ⟨S1000000x64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1, .i32⟩
  | .hbm, ⟨48, _⟩ => ⟨S_, .i32⟩
  | .hbm, ⟨49, _⟩ => ⟨S1000000x1, .i32⟩
  | .hbm, ⟨50, _⟩ => ⟨S1000000x1, .i1⟩
  | .hbm, ⟨51, _⟩ => ⟨S1x1, .i32⟩
  | .hbm, ⟨52, _⟩ => ⟨S1000000x1, .i32⟩
  | .hbm, ⟨53, _⟩ => ⟨S1000000x1, .i1⟩
  | .hbm, ⟨54, _⟩ => ⟨S1000000x1, .i1⟩
  | .hbm, ⟨55, _⟩ => ⟨S_, .i1⟩
  | .hbm, ⟨56, _⟩ => ⟨S1000000, .i1⟩
  | .hbm, ⟨57, _⟩ => ⟨S1000000x64, .f32⟩
  | .hbm, ⟨58, _⟩ => ⟨S1000000x64, .i1⟩
  | .hbm, ⟨59, _⟩ => ⟨S_, .f32⟩
  | .hbm, ⟨60, _⟩ => ⟨S1000000x64, .f32⟩
  | .hbm, ⟨61, _⟩ => ⟨S1000000x64, .f32⟩
  | .hbm, ⟨62, _⟩ => ⟨S_, .i32⟩
  | .hbm, ⟨63, _⟩ => ⟨S1000000, .i32⟩
  | .hbm, ⟨64, _⟩ => ⟨S1000000, .i1⟩
  | .hbm, ⟨65, _⟩ => ⟨S_, .i32⟩
  | .hbm, ⟨66, _⟩ => ⟨S1000000, .i32⟩
  | .hbm, ⟨67, _⟩ => ⟨S1000000, .i32⟩
  | .hbm, ⟨68, _⟩ => ⟨S1000000, .i32⟩
  | .hbm, ⟨69, _⟩ => ⟨S1000000x1, .i32⟩
  | .hbm, ⟨70, _⟩ => ⟨S1, .i32⟩
  | .hbm, ⟨71, _⟩ => ⟨S_, .i32⟩
  | .hbm, ⟨72, _⟩ => ⟨S1000000x1, .i32⟩
  | .hbm, ⟨73, _⟩ => ⟨S1000000x1, .i1⟩
  | .hbm, ⟨74, _⟩ => ⟨S1x1, .i32⟩
  | .hbm, ⟨75, _⟩ => ⟨S1000000x1, .i32⟩
  | .hbm, ⟨76, _⟩ => ⟨S1000000x1, .i1⟩
  | .hbm, ⟨77, _⟩ => ⟨S1000000x1, .i1⟩
  | .hbm, ⟨78, _⟩ => ⟨S_, .i1⟩
  | .hbm, ⟨79, _⟩ => ⟨S1000000, .i1⟩
  | .hbm, ⟨80, _⟩ => ⟨S1000000x64, .f32⟩
  | .hbm, ⟨81, _⟩ => ⟨S1000000x64, .i1⟩
  | .hbm, ⟨82, _⟩ => ⟨S_, .f32⟩
  | .hbm, ⟨83, _⟩ => ⟨S1000000x64, .f32⟩
  | .hbm, ⟨84, _⟩ => ⟨S1000000x64, .f32⟩
  | .hbm, ⟨85, _⟩ => ⟨S_, .i32⟩
  | .hbm, ⟨86, _⟩ => ⟨S1000000, .i32⟩
  | .hbm, ⟨87, _⟩ => ⟨S1000000, .i1⟩
  | .hbm, ⟨88, _⟩ => ⟨S_, .i32⟩
  | .hbm, ⟨89, _⟩ => ⟨S1000000, .i32⟩
  | .hbm, ⟨90, _⟩ => ⟨S1000000, .i32⟩
  | .hbm, ⟨91, _⟩ => ⟨S1000000, .i32⟩
  | .hbm, ⟨92, _⟩ => ⟨S1000000x1, .i32⟩
  | .hbm, ⟨93, _⟩ => ⟨S1, .i32⟩
  | .hbm, ⟨94, _⟩ => ⟨S_, .i32⟩
  | .hbm, ⟨95, _⟩ => ⟨S1000000x1, .i32⟩
  | .hbm, ⟨96, _⟩ => ⟨S1000000x1, .i1⟩
  | .hbm, ⟨97, _⟩ => ⟨S1x1, .i32⟩
  | .hbm, ⟨98, _⟩ => ⟨S1000000x1, .i32⟩
  | .hbm, ⟨99, _⟩ => ⟨S1000000x1, .i1⟩
  | .hbm, ⟨100, _⟩ => ⟨S1000000x1, .i1⟩
  | .hbm, ⟨101, _⟩ => ⟨S_, .i1⟩
  | .hbm, ⟨102, _⟩ => ⟨S1000000, .i1⟩
  | .hbm, ⟨103, _⟩ => ⟨S1000000x64, .f32⟩
  | .hbm, ⟨104, _⟩ => ⟨S1000000x64, .i1⟩
  | .hbm, ⟨105, _⟩ => ⟨S_, .f32⟩
  | .hbm, ⟨106, _⟩ => ⟨S1000000x64, .f32⟩
  | .hbm, ⟨107, _⟩ => ⟨S1000000x64, .f32⟩
  | .hbm, ⟨108, _⟩ => ⟨S1000000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x256, .f32⟩
  | .local _ .vmem, ⟨6, _⟩ => ⟨S5000x256, .f32⟩
  | .local _ .vmem, ⟨7, _⟩ => ⟨S256x64, .f32⟩
  | .local _ .vmem, ⟨8, _⟩ => ⟨S5000x64, .f32⟩
  | .local _ .vmem, ⟨9, _⟩ => ⟨S5000x64, .f32⟩
  | .local _ .vmem, ⟨10, _⟩ => ⟨S5000x256, .f32⟩
  | .local _ .vmem, ⟨11, _⟩ => ⟨S5000x256, .f32⟩
  | .local _ .vmem, ⟨12, _⟩ => ⟨S256x64, .f32⟩
  | .local _ .vmem, ⟨13, _⟩ => ⟨S5000x64, .f32⟩
  | .local _ .vmem, ⟨14, _⟩ => ⟨S5000x64, .f32⟩
  | .local _ .vmem, ⟨15, _⟩ => ⟨S8000x64, .f32⟩
  | .local _ .vmem, ⟨16, _⟩ => ⟨S8000x64, .f32⟩
  | .local _ .vmem, ⟨17, _⟩ => ⟨S8000x64, .f32⟩
  | .local _ .vmem, ⟨18, _⟩ => ⟨S8000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S256x64, .f32⟩
  | .local _ .vmem, ⟨24, _⟩ => ⟨S8000x64, .f32⟩
  | .local _ .vmem, ⟨25, _⟩ => ⟨S8000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v3 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v4 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v5 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v6 : Ref sig .tc := ⟨.hbm, 107, rfl⟩
abbrev main_v7 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem5_0 : DmaSem sig := 24
abbrev cc3_sem5_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  concatenates_S8000x64_S8000x64_S8000x64_S8000x64_S8000x256_d1 : Shape.Concatenates [S8000x64, S8000x64, S8000x64, S8000x64] S8000x256 1
  dot_S5000x256_S256x64_S5000x64_1_0_0_1_n_n_wf : DotDims.WF S5000x256 S256x64 S5000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S8000x256_S256x64_S8000x64_1_0_0_1_n_n_wf : DotDims.WF S8000x256 S256x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .f32 = 32 ∨ (Rect.block (s := S256x64) S256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .f32 = 32 ∨ (Rect.block (s := S256x64) S256x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1000000x64.size a
  hwx3_0 : ∀ i : grid3.Coords, EltTy.bits .f32 = 32 ∨ (Rect.block (s := S1000000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x64.size a ≤ S1000000x64.size a
  hwx3_1 : ∀ i : grid3.Coords, EltTy.bits .f32 = 32 ∨ (Rect.block (s := S1000000x64) S8000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1000000x64.size a
  hwx3_2 : ∀ i : grid3.Coords, EltTy.bits .f32 = 32 ∨ (Rect.block (s := S1000000x64) S8000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x64.size a ≤ S1000000x64.size a
  hwx3_3 : ∀ i : grid3.Coords, EltTy.bits .f32 = 32 ∨ (Rect.block (s := S1000000x64) S8000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x64.size a ≤ S256x64.size a
  hwx3_4 : ∀ i : grid3.Coords, EltTy.bits .f32 = 32 ∨ (Rect.block (s := S256x64) S256x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x64.size a ≤ S1000000x64.size a
  hwx3_5 : ∀ i : grid3.Coords, EltTy.bits .f32 = 32 ∨ (Rect.block (s := S1000000x64) S8000x64.size (cc3_transform_5 i) (hinb3_5 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S8000x256_S256x64_S8000x64_1_0_0_1_n_n : DotDims S8000x256 S256x64 S8000x64 where
  lhsContracting := [1]
  rhsContracting := [0]
  lhsNonContracting := [0]
  rhsNonContracting := [1]
  lhsBatch := []
  rhsBatch := []
  wf := dot_S8000x256_S256x64_S8000x64_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S8000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S8000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S8000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S256x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S8000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S50000x256 : Shape := ⟨2, ![50000, 256]⟩
abbrev S20000x256 : Shape := ⟨2, ![20000, 256]⟩
abbrev S256x64 : Shape := ⟨2, ![256, 64]⟩
abbrev S1000000 : Shape := ⟨1, ![1000000]⟩
abbrev S100000x64 : Shape := ⟨2, ![100000, 64]⟩
abbrev S50000x64 : Shape := ⟨2, ![50000, 64]⟩
abbrev S_ : Shape := ⟨0, ![]⟩
abbrev S1000000x1 : Shape := ⟨2, ![1000000, 1]⟩
abbrev S1000000x64 : Shape := ⟨2, ![1000000, 64]⟩
abbrev S1000000x256 : Shape := ⟨2, ![1000000, 256]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000x256, .f32⟩
  | .hbm, ⟨2, _⟩ => ⟨S50000x256, .f32⟩
  | .hbm, ⟨3, _⟩ => ⟨S20000x256, .f32⟩
  | .hbm, ⟨4, _⟩ => ⟨S256x64, .f32⟩
  | .hbm, ⟨5, _⟩ => ⟨S256x64, .f32⟩
  | .hbm, ⟨6, _⟩ => ⟨S256x64, .f32⟩
  | .hbm, ⟨7, _⟩ => ⟨S256x64, .f32⟩
  | .hbm, ⟨8, _⟩ => ⟨S256x64, .f32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000, .i32⟩
  | .hbm, ⟨13, _⟩ => ⟨S100000x64, .f32⟩
  | .hbm, ⟨14, _⟩ => ⟨S50000x64, .f32⟩
  | .hbm, ⟨15, _⟩ => ⟨S50000x64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x256, .f32⟩
  | .hbm, ⟨53, _⟩ => ⟨S1000000x64, .f32⟩
  | .hbm, ⟨54, _⟩ => ⟨S_, .f32⟩
  | .hbm, ⟨55, _⟩ => ⟨S_, .f32⟩
  | .hbm, ⟨56, _⟩ => ⟨S1000000x64, .f32⟩
  | .hbm, ⟨57, _⟩ => ⟨S1000000x64, .i1⟩
  | .hbm, ⟨58, _⟩ => ⟨S_, .f32⟩
  | .hbm, ⟨59, _⟩ => ⟨S1000000x64, .f32⟩
  | .hbm, ⟨60, _⟩ => ⟨S1000000x64, .f32⟩
  | .hbm, ⟨61, _⟩ => ⟨S1000000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x64_S1000000x256_d1 : Shape.Concatenates [S1000000x64, S1000000x64, S1000000x64, S1000000x64] S1000000x256 1
  bcast_S_S1000000x64 : S_.BroadcastsInDim S1000000x64 (![] : Fin 0 → Fin S1000000x64.rank)
  dot_S100000x256_S256x64_S100000x64_1_0_0_1_n_n_wf : DotDims.WF S100000x256 S256x64 S100000x64 [1] [0] [0] [1] [] []
  dot_S50000x256_S256x64_S50000x64_1_0_0_1_n_n_wf : DotDims.WF S50000x256 S256x64 S50000x64 [1] [0] [0] [1] [] []
  gather_S100000x64_S1000000x1_S1000000x64_1_0_n_n_0_1_164_wf : GatherDims.WF S100000x64 S1000000x1 S1000000x64 [1] [0] [] [0] [] 1 ![1, 64]
  gather_S50000x64_S1000000x1_S1000000x64_1_0_n_n_0_1_164_wf : GatherDims.WF S50000x64 S1000000x1 S1000000x64 [1] [0] [] [0] [] 1 ![1, 64]
  dot_S1000000x256_S256x64_S1000000x64_1_0_0_1_n_n_wf : DotDims.WF S1000000x256 S256x64 S1000000x64 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x256_S256x64_S1000000x64_1_0_0_1_n_n : DotDims S1000000x256 S256x64 S1000000x64 where
  lhsContracting := [1]
  rhsContracting := [0]
  lhsNonContracting := [0]
  rhsNonContracting := [1]
  lhsBatch := []
  rhsBatch := []
  wf := dot_S1000000x256_S256x64_S1000000x64_1_0_0_1_n_n_wf

class Facts : Prop extends Facts₀ where

variable [Facts]
-- ==== Proof.Spec.lean ====
/- The common value of the two programs, as one function of the argument arrays.

   Three feature tables are projected to 64 columns by a matrix product. Each of the four index arrays names, per
   edge, a row of a projected table; an index is read as NumPy reads it (a negative index counts from the table's end).
   The four gathered 64-column rows of an edge are laid side by side into a row of 256, multiplied by the 256 × 64
   weight, and passed through the leaky rectifier with slope 1/5 (as the float 0x3E4CCCCD). -/
import proofs.«410567_j58815282152044_2_alg».proof.ReferenceIdeal
import proofs.«410567_j58815282152044_2_alg».proof.Proof.Gen.ReferenceIdeal

noncomputable section

namespace Cert.Spec

open Idealize.ShloMosaic Cert.ReferenceIdeal
open Cert.ReferenceIdeal.Facts₀

variable {F : FTy → Type} [FloatOps F]

/-- A row index as NumPy reads it: `idx + n` where `idx` is negative, `idx` otherwise (two's complement words). -/
def wrapped (n : BitVec 32) (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 n))) idx

/-- The same indices as a column, the form a gather takes its start indices in. -/
def rows (n : BitVec 32) (idx : IVec S1000000 32) : IVec S1000000x1 32 :=
  broadcastInDim S1000000x1 ![0] bcast_S1000000_S1000000x1_0 (wrapped n idx)

/-- Every index, read as NumPy reads it, names a row of a table of `hi + 1` rows: `0 ≤ wrapped ≤ hi` as signed words. -/
def InRows (n hi : BitVec 32) (idx : IVec S1000000 32) : Prop :=
  ∀ e : S1000000.Idx,
    andi (cmpi .sge (wrapped n idx) (broadcastInDim S1000000 ![] bcast_S_S1000000 (constantI S_ 32 0#32)))
      (cmpi .sle (wrapped n idx) (broadcastInDim S1000000 ![] bcast_S_S1000000 (constantI S_ 32 hi))) e = 1#1

/-- A 100000-row feature table projected to 64 columns. -/
def proj100 (x : FVec F S100000x256 .f32) (p : FVec F S256x64 .f32) : FVec F S100000x64 .f32 :=
  Host.dotGeneral dot_S100000x256_S256x64_S100000x64_1_0_0_1_n_n none x p

/-- A 50000-row feature table projected to 64 columns. -/
def proj50 (x : FVec F S50000x256 .f32) (p : FVec F S256x64 .f32) : FVec F S50000x64 .f32 :=
  Host.dotGeneral dot_S50000x256_S256x64_S50000x64_1_0_0_1_n_n none x p

/-- One row of a 100000-row table per edge. -/
def pick100 (tbl : FVec F S100000x64 .f32) (r : IVec S1000000x1 32) : FVec F S1000000x64 .f32 :=
  Host.gather gather_S100000x64_S1000000x1_S1000000x64_1_0_n_n_0_1_164 tbl r

/-- One row of a 50000-row table per edge. -/
def pick50 (tbl : FVec F S50000x64 .f32) (r : IVec S1000000x1 32) : FVec F S1000000x64 .f32 :=
  Host.gather gather_S50000x64_S1000000x1_S1000000x64_1_0_n_n_0_1_164 tbl r

/-- Four 64-column arrays side by side. -/
def cat (a b c d : FVec F S1000000x64 .f32) : FVec F S1000000x256 .f32 :=
  concatenate S1000000x256 1 [⟨S1000000x64, a⟩, ⟨S1000000x64, b⟩, ⟨S1000000x64, c⟩, ⟨S1000000x64, d⟩]
    concatenates_S1000000x64_S1000000x64_S1000000x64_S1000000x64_S1000000x256_d1

/-- The leaky rectifier: `y` where `y ≥ 0`, the slope times `y` elsewhere. -/
def leaky (y : FVec F S1000000x64 .f32) : FVec F S1000000x64 .f32 :=
  select (cmpf .oge y (broadcastInDim S1000000x64 ![] bcast_S_S1000000x64 (constant S_ .f32 0x00000000#32)))
    y (mulf (broadcastInDim S1000000x64 ![] bcast_S_S1000000x64 (id (constant S_ .f32 0x3E4CCCCD#32))) y)

/-- The last stage: the four gathered arrays side by side, times the weight, rectified. -/
def head (a b c d : FVec F S1000000x64 .f32) (w : FVec F S256x64 .f32) : FVec F S1000000x64 .f32 :=
  leaky (Host.dotGeneral dot_S1000000x256_S256x64_S1000000x64_1_0_0_1_n_n none (cat a b c d) w)

/-- The whole computation. -/
def result (a0 : FVec F S100000x256 .f32) (a1 a2 : FVec F S50000x256 .f32) (p4 p5 p6 w8 : FVec F S256x64 .f32)
    (i9 i10 i11 i12 : IVec S1000000 32) : FVec F S1000000x64 .f32 :=
  head (pick100 (proj100 a0 p4) (rows 100000#32 i9)) (pick100 (proj100 a0 p4) (rows 100000#32 i10))
    (pick50 (proj50 a1 p5) (rows 50000#32 i11)) (pick50 (proj50 a2 p6) (rows 50000#32 i12)) w8

end Cert.Spec

end
-- ==== Proof.RefRun.lean ====
import proofs.«410567_j58815282152044_2_alg».proof.ReferenceIdeal
import proofs.«410567_j58815282152044_2_alg».proof.Proof.Gen.ReferenceIdeal
import proofs.«410567_j58815282152044_2_alg».proof.Proof.Spec
import Idealize.ShloMosaic.Lib.StableHlo.Run

noncomputable section

namespace Cert.RefRun

open Idealize.ShloMosaic Idealize.SL.Sem Cert.ReferenceIdeal

variable {F : FTy → Type} [FloatOps F]

section Helpers

open Cert.ReferenceIdeal.Facts₀

set_option maxRecDepth 8192

/-- The reference's operations in order, the two calls unfolded: its own forty-two, then the rectifier's six over
    the buffers of its call (the zero, its broadcast, the comparison, the slope converted to its own type, its
    broadcast, the product) and the selection its inner call makes, whose result is the program's. -/
private abbrev ops : List (HloOp τ sig (Elt F)) :=
  [ StableHlo.binary main_arg0 main_arg4 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.binary main_arg1 main_arg5 main_v1 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_arg2 main_arg6 main_v2 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.nullary main_c (constantI S_ 32 0#32),
    StableHlo.unary main_c main_v3 (broadcastInDim S1000000 ![] bcast_S_S1000000 : (⟨S_, .i32⟩ : BufTy).Contents (Elt F) → (⟨S1000000, .i32⟩ : BufTy).Contents (Elt F)),
    StableHlo.binary main_arg9 main_v3 main_v4 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v5 (broadcastInDim S1000000 ![] bcast_S_S1000000 : (⟨S_, .i32⟩ : BufTy).Contents (Elt F) → (⟨S1000000, .i32⟩ : BufTy).Contents (Elt F)),
    StableHlo.binary main_arg9 main_v5 main_v6 (addi : (⟨S1000000, .i32⟩ : BufTy).Contents (Elt F) → (⟨S1000000, .i32⟩ : BufTy).Contents (Elt F) → (⟨S1000000, .i32⟩ : BufTy).Contents (Elt F)),
    StableHlo.ternary main_v4 main_v6 main_arg9 main_v7 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v7 main_v8 (broadcastInDim S1000000x1 ![0] bcast_S1000000_S1000000x1_0 : (⟨S1000000, .i32⟩ : BufTy).Contents (Elt F) → (⟨S1000000x1, .i32⟩ : BufTy).Contents (Elt F)),
    StableHlo.binary main_v0 main_v8 main_v9 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_1 (constantI S_ 32 0#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_arg10 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v12 (broadcastInDim S1000000 ![] bcast_S_S1000000 : (⟨S_, .i32⟩ : BufTy).Contents (Elt F) → (⟨S1000000, .i32⟩ : BufTy).Contents (Elt F)),
    StableHlo.binary main_arg10 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_arg10 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v14 main_v15 (broadcastInDim S1000000x1 ![0] bcast_S1000000_S1000000x1_0 : (⟨S1000000, .i32⟩ : BufTy).Contents (Elt F) → (⟨S1000000x1, .i32⟩ : BufTy).Contents (Elt F)),
    StableHlo.binary main_v0 main_v15 main_v16 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_3 (constantI S_ 32 0#32),
    StableHlo.unary main_c_3 main_v17 (broadcastInDim S1000000 ![] bcast_S_S1000000 : (⟨S_, .i32⟩ : BufTy).Contents (Elt F) → (⟨S1000000, .i32⟩ : BufTy).Contents (Elt F)),
    StableHlo.binary main_arg11 main_v17 main_v18 (cmpi .slt : (⟨S1000000, .i32⟩ : BufTy).Contents (Elt F) → (⟨S1000000, .i32⟩ : BufTy).Contents (Elt F) → (⟨S1000000, .i1⟩ : BufTy).Contents (Elt F)),
    StableHlo.nullary main_c_4 (constantI S_ 32 50000#32),
    StableHlo.unary main_c_4 main_v19 (broadcastInDim S1000000 ![] bcast_S_S1000000 : (⟨S_, .i32⟩ : BufTy).Contents (Elt F) → (⟨S1000000, .i32⟩ : BufTy).Contents (Elt F)),
    StableHlo.binary main_arg11 main_v19 main_v20 (addi : (⟨S1000000, .i32⟩ : BufTy).Contents (Elt F) → (⟨S1000000, .i32⟩ : BufTy).Contents (Elt F) → (⟨S1000000, .i32⟩ : BufTy).Contents (Elt F)),
    StableHlo.ternary main_v18 main_v20 main_arg11 main_v21 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v21 main_v22 (broadcastInDim S1000000x1 ![0] bcast_S1000000_S1000000x1_0 : (⟨S1000000, .i32⟩ : BufTy).Contents (Elt F) → (⟨S1000000x1, .i32⟩ : BufTy).Contents (Elt F)),
    StableHlo.binary main_v1 main_v22 main_v23 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_5 (constantI S_ 32 0#32),
    StableHlo.unary main_c_5 main_v24 (broadcastInDim S1000000 ![] bcast_S_S1000000 : (⟨S_, .i32⟩ : BufTy).Contents (Elt F) → (⟨S1000000, .i32⟩ : BufTy).Contents (Elt F)),
    StableHlo.binary main_arg12 main_v24 main_v25 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 50000#32),
    StableHlo.unary main_c_6 main_v26 (broadcastInDim S1000000 ![] bcast_S_S1000000 : (⟨S_, .i32⟩ : BufTy).Contents (Elt F) → (⟨S1000000, .i32⟩ : BufTy).Contents (Elt F)),
    StableHlo.binary main_arg12 main_v26 main_v27 (addi : (⟨S1000000, .i32⟩ : BufTy).Contents (Elt F) → (⟨S1000000, .i32⟩ : BufTy).Contents (Elt F) → (⟨S1000000, .i32⟩ : BufTy).Contents (Elt F)),
    StableHlo.ternary main_v25 main_v27 main_arg12 main_v28 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v28 main_v29 (broadcastInDim S1000000x1 ![0] bcast_S1000000_S1000000x1_0 : (⟨S1000000, .i32⟩ : BufTy).Contents (Elt F) → (⟨S1000000x1, .i32⟩ : BufTy).Contents (Elt F)),
    StableHlo.binary main_v2 main_v29 main_v30 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nary ![main_v9, main_v16, main_v23, main_v30] main_v31 (fun u => concatenate S1000000x256 1 [⟨S1000000x64, u 0⟩, ⟨S1000000x64, u 1⟩, ⟨S1000000x64, u 2⟩, ⟨S1000000x64, u 3⟩] concatenates_S1000000x64_S1000000x64_S1000000x64_S1000000x64_S1000000x256_d1),
    StableHlo.binary main_v31 main_arg8 main_v32 ((fun l r => Host.dotGeneral dot_S1000000x256_S256x64_S1000000x64_1_0_0_1_n_n none l r) : (⟨S1000000x256, .f32⟩ : BufTy).Contents (Elt F) → (⟨S256x64, .f32⟩ : BufTy).Contents (Elt F) → (⟨S1000000x64, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S1000000x64 ![] bcast_S_S1000000x64),
    StableHlo.TRef.binary (.of main_v32 : StableHlo.TRef sig ⟨S1000000x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S1000000x64 ![] bcast_S_S1000000x64),
    StableHlo.TRef.binary main_call0.v3 (.of main_v32 : StableHlo.TRef sig ⟨S1000000x64, .f32⟩) main_call0.v4 mulf,
    StableHlo.TRef.ternary main_call0.v1 (.of main_v32 : StableHlo.TRef sig ⟨S1000000x64, .f32⟩) main_call0.v4 main_call0.call0.v0 select ]

/-- The program is that straight line: the two functions unfolded at their calls, sequencing reassociated. -/
private theorem main_eq (c : Dev nD) : main (F := F) c = StableHlo.seq ops := by
  simp only [main, fn_leaky_relu.body, fn_where.body, StableHlo.seq, bind_assoc, pure_bind]

private theorem scopedRefs_eq : (Finset.univ.filter fun b : Ref sig .tc => b.isScoped) = ∅ := by decide
private theorem scopedSems_eq : (Finset.univ.filter fun sm : SemLoc sig => sm.isScoped .tc) = ∅ := by decide

private theorem ops_sub : (ops : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nary_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

/-- Every weakly fair execution of the reference terminates, and every final state has each buffer at the
    operations' fold over the launch contents. -/
private theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

/-- Reads the fold at a buffer: each operation's result at its own buffer is its function of the contents it reads,
    and at any other buffer what was there. -/
local macro "fold_results" : tactic =>
  `(tactic| simp (disch := decide) only [StableHlo.after_cons, StableHlo.after_nil,
      StableHlo.nullary_result', StableHlo.unary_result', StableHlo.binary_result', StableHlo.ternary_result', StableHlo.nary4_result',
      StableHlo.nullary_result_ne', StableHlo.unary_result_ne', StableHlo.binary_result_ne', StableHlo.ternary_result_ne', StableHlo.nary_result_ne'])

/-- The operations up to the last gather: the three projections and the four index computations with their gathers. -/
private abbrev opsA : List (HloOp τ sig (Elt F)) :=
  [ StableHlo.binary main_arg0 main_arg4 main_v0 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.binary main_arg1 main_arg5 main_v1 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.binary main_arg2 main_arg6 main_v2 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.nullary main_c (constantI S_ 32 0#32),
    StableHlo.unary main_c main_v3 (broadcastInDim S1000000 ![] bcast_S_S1000000 : (⟨S_, .i32⟩ : BufTy).Contents (Elt F) → (⟨S1000000, .i32⟩ : BufTy).Contents (Elt F)),
    StableHlo.binary main_arg9 main_v3 main_v4 (cmpi .slt : (⟨S1000000, .i32⟩ : BufTy).Contents (Elt F) → (⟨S1000000, .i32⟩ : BufTy).Contents (Elt F) → (⟨S1000000, .i1⟩ : BufTy).Contents (Elt F)),
    StableHlo.nullary main_c_0 (constantI S_ 32 100000#32),
    StableHlo.unary main_c_0 main_v5 (broadcastInDim S1000000 ![] bcast_S_S1000000 : (⟨S_, .i32⟩ : BufTy).Contents (Elt F) → (⟨S1000000, .i32⟩ : BufTy).Contents (Elt F)),
    StableHlo.binary main_arg9 main_v5 main_v6 (addi : (⟨S1000000, .i32⟩ : BufTy).Contents (Elt F) → (⟨S1000000, .i32⟩ : BufTy).Contents (Elt F) → (⟨S1000000, .i32⟩ : BufTy).Contents (Elt F)),
    StableHlo.ternary main_v4 main_v6 main_arg9 main_v7 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v7 main_v8 (broadcastInDim S1000000x1 ![0] bcast_S1000000_S1000000x1_0 : (⟨S1000000, .i32⟩ : BufTy).Contents (Elt F) → (⟨S1000000x1, .i32⟩ : BufTy).Contents (Elt F)),
    StableHlo.binary main_v0 main_v8 main_v9 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_1 (constantI S_ 32 0#32),
    StableHlo.unary main_c_1 main_v10 (broadcastInDim S1000000 ![] bcast_S_S1000000 : (⟨S_, .i32⟩ : BufTy).Contents (Elt F) → (⟨S1000000, .i32⟩ : BufTy).Contents (Elt F)),
    StableHlo.binary main_arg10 main_v10 main_v11 (cmpi .slt : (⟨S1000000, .i32⟩ : BufTy).Contents (Elt F) → (⟨S1000000, .i32⟩ : BufTy).Contents (Elt F) → (⟨S1000000, .i1⟩ : BufTy).Contents (Elt F)),
    StableHlo.nullary main_c_2 (constantI S_ 32 100000#32),
    StableHlo.unary main_c_2 main_v12 (broadcastInDim S1000000 ![] bcast_S_S1000000 : (⟨S_, .i32⟩ : BufTy).Contents (Elt F) → (⟨S1000000, .i32⟩ : BufTy).Contents (Elt F)),
    StableHlo.binary main_arg10 main_v12 main_v13 (addi : (⟨S1000000, .i32⟩ : BufTy).Contents (Elt F) → (⟨S1000000, .i32⟩ : BufTy).Contents (Elt F) → (⟨S1000000, .i32⟩ : BufTy).Contents (Elt F)),
    StableHlo.ternary main_v11 main_v13 main_arg10 main_v14 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v14 main_v15 (broadcastInDim S1000000x1 ![0] bcast_S1000000_S1000000x1_0 : (⟨S1000000, .i32⟩ : BufTy).Contents (Elt F) → (⟨S1000000x1, .i32⟩ : BufTy).Contents (Elt F)),
    StableHlo.binary main_v0 main_v15 main_v16 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.nullary main_c_3 (constantI S_ 32 0#32),
    StableHlo.unary main_c_3 main_v17 (broadcastInDim S1000000 ![] bcast_S_S1000000 : (⟨S_, .i32⟩ : BufTy).Contents (Elt F) → (⟨S1000000, .i32⟩ : BufTy).Contents (Elt F)),
    StableHlo.binary main_arg11 main_v17 main_v18 (cmpi .slt : (⟨S1000000, .i32⟩ : BufTy).Contents (Elt F) → (⟨S1000000, .i32⟩ : BufTy).Contents (Elt F) → (⟨S1000000, .i1⟩ : BufTy).Contents (Elt F)),
    StableHlo.nullary main_c_4 (constantI S_ 32 50000#32),
    StableHlo.unary main_c_4 main_v19 (broadcastInDim S1000000 ![] bcast_S_S1000000 : (⟨S_, .i32⟩ : BufTy).Contents (Elt F) → (⟨S1000000, .i32⟩ : BufTy).Contents (Elt F)),
    StableHlo.binary main_arg11 main_v19 main_v20 (addi : (⟨S1000000, .i32⟩ : BufTy).Contents (Elt F) → (⟨S1000000, .i32⟩ : BufTy).Contents (Elt F) → (⟨S1000000, .i32⟩ : BufTy).Contents (Elt F)),
    StableHlo.ternary main_v18 main_v20 main_arg11 main_v21 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v21 main_v22 (broadcastInDim S1000000x1 ![0] bcast_S1000000_S1000000x1_0 : (⟨S1000000, .i32⟩ : BufTy).Contents (Elt F) → (⟨S1000000x1, .i32⟩ : BufTy).Contents (Elt F)),
    StableHlo.binary main_v1 main_v22 main_v23 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)),
    StableHlo.nullary main_c_5 (constantI S_ 32 0#32),
    StableHlo.unary main_c_5 main_v24 (broadcastInDim S1000000 ![] bcast_S_S1000000 : (⟨S_, .i32⟩ : BufTy).Contents (Elt F) → (⟨S1000000, .i32⟩ : BufTy).Contents (Elt F)),
    StableHlo.binary main_arg12 main_v24 main_v25 (cmpi .slt : (⟨S1000000, .i32⟩ : BufTy).Contents (Elt F) → (⟨S1000000, .i32⟩ : BufTy).Contents (Elt F) → (⟨S1000000, .i1⟩ : BufTy).Contents (Elt F)),
    StableHlo.nullary main_c_6 (constantI S_ 32 50000#32),
    StableHlo.unary main_c_6 main_v26 (broadcastInDim S1000000 ![] bcast_S_S1000000 : (⟨S_, .i32⟩ : BufTy).Contents (Elt F) → (⟨S1000000, .i32⟩ : BufTy).Contents (Elt F)),
    StableHlo.binary main_arg12 main_v26 main_v27 (addi : (⟨S1000000, .i32⟩ : BufTy).Contents (Elt F) → (⟨S1000000, .i32⟩ : BufTy).Contents (Elt F) → (⟨S1000000, .i32⟩ : BufTy).Contents (Elt F)),
    StableHlo.ternary main_v25 main_v27 main_arg12 main_v28 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v28 main_v29 (broadcastInDim S1000000x1 ![0] bcast_S1000000_S1000000x1_0 : (⟨S1000000, .i32⟩ : BufTy).Contents (Elt F) → (⟨S1000000x1, .i32⟩ : BufTy).Contents (Elt F)),
    StableHlo.binary main_v2 main_v29 main_v30 ((fun x i => Host.gather gather_S50000x64_S1000000x1_S1000000x64_1_0_n_n_0_1_164 x i) : (⟨S50000x64, .f32⟩ : BufTy).Contents (Elt F) → (⟨S1000000x1, .i32⟩ : BufTy).Contents (Elt F) → (⟨S1000000x64, .f32⟩ : BufTy).Contents (Elt F)) ]

/-- The rest: the concatenation, the product with the weight, the slope, and the rectifier's seven. -/
private abbrev opsB : List (HloOp τ sig (Elt F)) :=
  [ StableHlo.nary ![main_v9, main_v16, main_v23, main_v30] main_v31 (fun u => concatenate S1000000x256 1 [⟨S1000000x64, u 0⟩, ⟨S1000000x64, u 1⟩, ⟨S1000000x64, u 2⟩, ⟨S1000000x64, u 3⟩] concatenates_S1000000x64_S1000000x64_S1000000x64_S1000000x64_S1000000x256_d1),
    StableHlo.binary main_v31 main_arg8 main_v32 ((fun l r => Host.dotGeneral dot_S1000000x256_S256x64_S1000000x64_1_0_0_1_n_n none l r) : (⟨S1000000x256, .f32⟩ : BufTy).Contents (Elt F) → (⟨S256x64, .f32⟩ : BufTy).Contents (Elt F) → (⟨S1000000x64, .f32⟩ : BufTy).Contents (Elt F)),
    StableHlo.nullary main_cst (constant S_ .f32 0x3E4CCCCD#32),
    StableHlo.TRef.nullary main_call0.cst (constant S_ .f32 0x00000000#32),
    StableHlo.TRef.unary main_call0.cst main_call0.v0 (broadcastInDim S1000000x64 ![] bcast_S_S1000000x64),
    StableHlo.TRef.binary (.of main_v32 : StableHlo.TRef sig ⟨S1000000x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S1000000x64 ![] bcast_S_S1000000x64),
    StableHlo.TRef.binary main_call0.v3 (.of main_v32 : StableHlo.TRef sig ⟨S1000000x64, .f32⟩) main_call0.v4 mulf,
    StableHlo.TRef.ternary main_call0.v1 (.of main_v32 : StableHlo.TRef sig ⟨S1000000x64, .f32⟩) main_call0.v4 main_call0.call0.v0 select ]

private theorem ops_split : (ops : List (HloOp τ sig (Elt F))) = opsA ++ opsB := rfl

/-- The fold over a concatenation is the fold over the second list from the fold over the first. -/
private theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

/-! The contents after the first part, at the five buffers the second part reads. -/

private theorem v9_eq (V : Valuation τ sig (Elt F)) :
    StableHlo.after opsA V (Proc.devRef .tc main_v9) = Cert.Spec.pick100 (Cert.Spec.proj100 (V (Proc.devRef .tc main_arg0)) (V (Proc.devRef .tc main_arg4))) (Cert.Spec.rows 100000#32 (V (Proc.devRef .tc main_arg9))) := by
  fold_results
  rfl

private theorem v16_eq (V : Valuation τ sig (Elt F)) :
    StableHlo.after opsA V (Proc.devRef .tc main_v16) = Cert.Spec.pick100 (Cert.Spec.proj100 (V (Proc.devRef .tc main_arg0)) (V (Proc.devRef .tc main_arg4))) (Cert.Spec.rows 100000#32 (V (Proc.devRef .tc main_arg10))) := by
  fold_results
  rfl

private theorem v23_eq (V : Valuation τ sig (Elt F)) :
    StableHlo.after opsA V (Proc.devRef .tc main_v23) = Cert.Spec.pick50 (Cert.Spec.proj50 (V (Proc.devRef .tc main_arg1)) (V (Proc.devRef .tc main_arg5))) (Cert.Spec.rows 50000#32 (V (Proc.devRef .tc main_arg11))) := by
  fold_results
  rfl

private theorem v30_eq (V : Valuation τ sig (Elt F)) :
    StableHlo.after opsA V (Proc.devRef .tc main_v30) = Cert.Spec.pick50 (Cert.Spec.proj50 (V (Proc.devRef .tc main_arg2)) (V (Proc.devRef .tc main_arg6))) (Cert.Spec.rows 50000#32 (V (Proc.devRef .tc main_arg12))) := by
  fold_results
  rfl

private theorem w8_eq (V : Valuation τ sig (Elt F)) :
    StableHlo.after opsA V (Proc.devRef .tc main_arg8) = (V (Proc.devRef .tc main_arg8)) := by
  fold_results

/-- The second part from any contents: the last stage of the common value at the four gathered arrays and the weight. -/
private theorem tail_eq (W : Valuation τ sig (Elt F)) :
    StableHlo.after opsB W (Proc.devRef .tc main_v33)
      = Cert.Spec.head (W (Proc.devRef .tc main_v9)) (W (Proc.devRef .tc main_v16)) (W (Proc.devRef .tc main_v23)) (W (Proc.devRef .tc main_v30)) (W (Proc.devRef .tc main_arg8)) := by
  fold_results
  rfl

/-- The fold at the result buffer is the common value of the contents at the argument buffers. -/
private theorem out_eq (V : Valuation τ sig (Elt F)) :
    StableHlo.after ops V (Proc.devRef .tc main_v33) = Cert.Spec.result (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg8)) (V (Proc.devRef .tc main_arg9)) (V (Proc.devRef .tc main_arg10)) (V (Proc.devRef .tc main_arg11)) (V (Proc.devRef .tc main_arg12)) := by
  rw [ops_split, after_append, tail_eq, v9_eq, v16_eq, v23_eq, v30_eq, w8_eq]
  rfl

/-! No operation writes an argument buffer. -/

private theorem arg0_eq (V : Valuation τ sig (Elt F)) :
    StableHlo.after ops V (Proc.devRef .tc main_arg0) = V (Proc.devRef .tc main_arg0) := by
  fold_results

private theorem arg1_eq (V : Valuation τ sig (Elt F)) :
    StableHlo.after ops V (Proc.devRef .tc main_arg1) = V (Proc.devRef .tc main_arg1) := by
  fold_results

private theorem arg2_eq (V : Valuation τ sig (Elt F)) :
    StableHlo.after ops V (Proc.devRef .tc main_arg2) = V (Proc.devRef .tc main_arg2) := by
  fold_results

private theorem arg3_eq (V : Valuation τ sig (Elt F)) :
    StableHlo.after ops V (Proc.devRef .tc main_arg3) = V (Proc.devRef .tc main_arg3) := by
  fold_results

private theorem arg4_eq (V : Valuation τ sig (Elt F)) :
    StableHlo.after ops V (Proc.devRef .tc main_arg4) = V (Proc.devRef .tc main_arg4) := by
  fold_results

private theorem arg5_eq (V : Valuation τ sig (Elt F)) :
    StableHlo.after ops V (Proc.devRef .tc main_arg5) = V (Proc.devRef .tc main_arg5) := by
  fold_results

private theorem arg6_eq (V : Valuation τ sig (Elt F)) :
    StableHlo.after ops V (Proc.devRef .tc main_arg6) = V (Proc.devRef .tc main_arg6) := by
  fold_results

private theorem arg7_eq (V : Valuation τ sig (Elt F)) :
    StableHlo.after ops V (Proc.devRef .tc main_arg7) = V (Proc.devRef .tc main_arg7) := by
  fold_results

private theorem arg8_eq (V : Valuation τ sig (Elt F)) :
    StableHlo.after ops V (Proc.devRef .tc main_arg8) = V (Proc.devRef .tc main_arg8) := by
  fold_results

private theorem arg9_eq (V : Valuation τ sig (Elt F)) :
    StableHlo.after ops V (Proc.devRef .tc main_arg9) = V (Proc.devRef .tc main_arg9) := by
  fold_results

private theorem arg10_eq (V : Valuation τ sig (Elt F)) :
    StableHlo.after ops V (Proc.devRef .tc main_arg10) = V (Proc.devRef .tc main_arg10) := by
  fold_results

private theorem arg11_eq (V : Valuation τ sig (Elt F)) :
    StableHlo.after ops V (Proc.devRef .tc main_arg11) = V (Proc.devRef .tc main_arg11) := by
  fold_results

private theorem arg12_eq (V : Valuation τ sig (Elt F)) :
    StableHlo.after ops V (Proc.devRef .tc main_arg12) = V (Proc.devRef .tc main_arg12) := by
  fold_results

end Helpers

/-- Every weakly fair execution of the reference's @main terminates without a fault; its result buffer then holds
    `Cert.Spec.result` of the argument arrays, and the argument arrays are as launched. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v33)
        = Cert.Spec.result (m ((c.tc : Thread nD τ).loc main_arg0)) (m ((c.tc : Thread nD τ).loc main_arg1))
            (m ((c.tc : Thread nD τ).loc main_arg2)) (m ((c.tc : Thread nD τ).loc main_arg4))
            (m ((c.tc : Thread nD τ).loc main_arg5)) (m ((c.tc : Thread nD τ).loc main_arg6))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run (defs (F := F)) _ _).mono (fun r h c => ⟨(h c main_v33).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_main m ρ)

end Cert.RefRun

end
-- ==== Proof.PreDecode.lean ====
import proofs.«410567_j58815282152044_2_alg».proof.Defs
import proofs.«410567_j58815282152044_2_alg».proof.Proof.Gen.Pre_finite_inputs
import proofs.«410567_j58815282152044_2_alg».proof.Proof.Spec
import Idealize.ShloMosaic.Lib.ReduceAll

noncomputable section

namespace Cert.PreDecode

open Idealize.ShloMosaic Idealize.SL.Sem

/-- A rank-0 array has one index. -/
private instance : Subsingleton Cert.Pre_finite_inputs.S_.Idx := ⟨fun a b => funext fun d => d.elim0⟩

/-- The precondition's last four conjuncts, read: each index array, read as NumPy reads it, stays inside its table. -/
theorem inRows (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRows 100000#32 99999#32 (m ((c.tc : Thread Cert.KernelIdeal.nD Cert.KernelIdeal.τ).loc Cert.KernelIdeal.main_arg9))
    ∧ Cert.Spec.InRows 100000#32 99999#32 (m ((c.tc : Thread Cert.KernelIdeal.nD Cert.KernelIdeal.τ).loc Cert.KernelIdeal.main_arg10))
    ∧ Cert.Spec.InRows 50000#32 49999#32 (m ((c.tc : Thread Cert.KernelIdeal.nD Cert.KernelIdeal.τ).loc Cert.KernelIdeal.main_arg11))
    ∧ Cert.Spec.InRows 50000#32 49999#32 (m ((c.tc : Thread Cert.KernelIdeal.nD Cert.KernelIdeal.τ).loc Cert.KernelIdeal.main_arg12)) := by
  -- the precondition at its one (rank-0) index: a left-nested conjunction of thirteen one-bit words equal to 1
  have h0 := congrFun (h c) (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0
  -- a conjunction of two one-bit words is 1 exactly when both are: peel the last four conjuncts off, outermost first
  obtain ⟨h1, r12⟩ := IntOp.andi_eq_one.1 h0
  obtain ⟨h2, r11⟩ := IntOp.andi_eq_one.1 h1
  obtain ⟨h3, r10⟩ := IntOp.andi_eq_one.1 h2
  obtain ⟨h4, r9⟩ := IntOp.andi_eq_one.1 h3
  clear h0 h1 h2 h3 h4
  -- each of the four is a reduction by "and" over all 1000000 entries that came out 1: so every entry is 1,
  -- and an entry is the range test 0 ≤ wrapped ≤ hi of one index
  unfold Cert.Spec.InRows Cert.Spec.wrapped
  exact ⟨fun e => Host.reduce_andi_all _ _ _ _ _ r9 e, fun e => Host.reduce_andi_all _ _ _ _ _ r10 e,
    fun e => Host.reduce_andi_all _ _ _ _ _ r11 e, fun e => Host.reduce_andi_all _ _ _ _ _ r12 e⟩

end Cert.PreDecode

end
-- ==== Proof.ProjValue.lean ====
import proofs.«410567_j58815282152044_2_alg».proof.Proof.Gen.KernelIdeal.Frame
import proofs.«410567_j58815282152044_2_alg».proof.Proof.Spec
import Idealize.ShloMosaic.Lib.Pipeline.Value
import Idealize.ShloMosaic.Lib.ValueIdx
import Idealize.ShloMosaic.PureOps.Ideal.Laws
import Idealize.ShloMosaic.Lib.KernelVsHost
import Idealize.ShloMosaic.Lib.StackMember

set_option maxRecDepth 16384

noncomputable section

namespace Cert.KernelIdeal.ProjValue

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

/-! ## The products as sums over the contracted coordinate -/

/-- The block product's dimension numbers are the plain ones: rows by the contracted axis, times the contracted axis
    by columns. -/
private theorem blockDims_eq : dot_S5000x256_S256x64_S5000x64_1_0_0_1_n_n = DotDims.plain 5000 256 64 := rfl

/-- The 100000-row product's dimension numbers are the plain ones. -/
private theorem dims100_eq :
    Cert.ReferenceIdeal.dot_S100000x256_S256x64_S100000x64_1_0_0_1_n_n = DotDims.plain 100000 256 64 := rfl

/-- The 50000-row product's dimension numbers are the plain ones. -/
private theorem dims50_eq :
    Cert.ReferenceIdeal.dot_S50000x256_S256x64_S50000x64_1_0_0_1_n_n = DotDims.plain 50000 256 64 := rfl

/-- A block product into the zero accumulator, at row `p` and column `q`: the sum over the 256 contracted
    coordinates of the products of the entries (the two narrowings are the identity on the extended reals). -/
private theorem blockProduct_apply (x : FVec Ideal S5000x256 .f32) (w : FVec Ideal S256x64 .f32) (p : Fin 5000) (q : Fin 64) :
    matmul (F := Ideal) dot_S5000x256_S256x64_S5000x64_1_0_0_1_n_n none
        (truncf .bf16 x bitsLt_bf16_f32) (truncf .bf16 w bitsLt_bf16_f32) (constant S5000x64 .f32 0x00000000#32) (ix2 p q)
      = ∑ k : Fin 256, x (ix2 p k) * w (ix2 k q) := by
  rw [blockDims_eq, matmul_zero_eq_dotGeneral]
  exact StackMember.dotGeneral_plain_apply none x w p q

/-- The 100000-row projection at row `r` and column `q`. -/
private theorem proj100_apply (x : FVec Ideal S100000x256 .f32) (w : FVec Ideal S256x64 .f32) (r : Fin 100000) (q : Fin 64) :
    Cert.Spec.proj100 (F := Ideal) x w (ix2 r q) = ∑ k : Fin 256, x (ix2 r k) * w (ix2 k q) := by
  unfold Cert.Spec.proj100
  rw [dims100_eq]
  exact StackMember.dotGeneral_plain_apply none x w r q

/-- The 50000-row projection at row `r` and column `q`. -/
private theorem proj50_apply (x : FVec Ideal S50000x256 .f32) (w : FVec Ideal S256x64 .f32) (r : Fin 50000) (q : Fin 64) :
    Cert.Spec.proj50 (F := Ideal) x w (ix2 r q) = ∑ k : Fin 256, x (ix2 r k) * w (ix2 k q) := by
  unfold Cert.Spec.proj50
  rw [dims50_eq]
  exact StackMember.dotGeneral_plain_apply none x w r q

variable (V : (c : Dev nD) → (b : Ref sig .tc) → Buf (Elt Ideal) ((c : Thread nD τ).loc b))

/-! ## Region 0: a 100000-row table in twenty blocks of 5000 rows -/

/-- Each access of the body is at the zero offset: it takes its whole staging buffer. -/
private theorem zeroOffset : (![0, 0] : Fin 2 → Nat) = fun _ => 0 := funext fun a => by fin_cases a <;> rfl

/-- A block of the product is the product of the table's block of rows with the weight: where row `p` of the block is
    row `r` of the table and column `q` of the block's weight is column `q` of the weight, the block product at
    (`p`, `q`) is the whole product at (`r`, `q`). -/
private theorem blockOfProduct100 (X : FVec Ideal S100000x256 .f32) (W : FVec Ideal S256x64 .f32)
    (x : FVec Ideal S5000x256 .f32) (w : FVec Ideal S256x64 .f32) (p : Fin 5000) (q : Fin 64) (r : Fin 100000)
    (hx : ∀ k : Fin 256, x (ix2 p k) = X (ix2 r k)) (hw : ∀ k : Fin 256, w (ix2 k q) = W (ix2 k q)) :
    k0_pay1 (F := Ideal) x w (ix2 p q) = Cert.Spec.proj100 (F := Ideal) X W (ix2 r q) := by
  rw [proj100_apply]
  refine (blockProduct_apply x w p q).trans (Finset.sum_congr rfl fun k _ => ?_)
  rw [hx k, hw k]

/-- The printed index maps of region 0, decided over the grid: at point `t` the table's window and the output's are at
    row block `t`, the weight's window at its one block. -/
private theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projected table. -/
private theorem flushed0 (c : Dev nD) (t : Fin cfg0.N) :
    (dat0 (F := Ideal) V c).flushed 2 t
      = ((cfg0.win 2).blk t).view.read (Elt Ideal) (Cert.Spec.proj100 (F := Ideal) (V c main_arg0) (V c main_arg4)) := by
  show (cfg0.win 2).cut (grid0.coords t) ((dat0 V c).after 2 t) = _
  rw [after0_2]
  unfold out0_2
  rw [View.canon_unit_zero zeroOffset]
  simp only [View.ld_unit_zero (S := S5000x256) zeroOffset, View.ld_unit_zero (S := S256x64) zeroOffset]
  obtain ⟨e00, e01, e10, e11, e20, e21⟩ := blockIndex0 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k0_pay1 (F := Ideal) (iblk0 V c 0 t) (iblk0 V c 1 t) (ix2 p q)
    = Cert.Spec.proj100 (F := Ideal) (V c main_arg0) (V c main_arg4) (((cfg0.win 2).blk t).view.emb (ix2 p q))
  have e2 : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [e2]
  refine blockOfProduct100 _ _ (iblk0 V c 0 t) (iblk0 V c 1 t) p q _ (fun k => ?_) (fun k => ?_)
  · show V c main_arg0 (((cfg0.win 0).blk t).view.emb (ix2 p k)) = V c main_arg0 (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · show V c main_arg4 (((cfg0.win 1).blk t).view.emb (ix2 k q)) = V c main_arg4 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 64 + 1 * q.val = q.val; omega

/-- An index of the projected table is in point `t`'s block iff each coordinate is in the block's range on its axis. -/
private theorem memBlock0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every index of the projected table is in some point's block: row `r` is in the block of point `r / 5000`. -/
private theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by show (i 0).val / 5000 < 20; omega⟩, rfl⟩
  obtain ⟨-, -, -, -, e20, e21⟩ := blockIndex0 t
  refine ⟨t, flush0_2 t, ?_⟩
  rw [memBlock0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After region 0 its output array is the whole projected table. -/
theorem proj0 (c : Dev nD) :
    (dat0 (F := Ideal) V c).arrAt 2 cfg0.N = Cert.Spec.proj100 (F := Ideal) (V c main_arg0) (V c main_arg4) :=
  (dat0 (F := Ideal) V c).arrAt_eq_of_cover 2 (Cert.Spec.proj100 (F := Ideal) (V c main_arg0) (V c main_arg4))
    (fun t _ => flushed0 V c t) covered0

/-! ## Region 1: a 50000-row table in ten blocks of 5000 rows -/

/-- A block of the product is the product of the table's block of rows with the weight: where row `p` of the block is
    row `r` of the table and column `q` of the block's weight is column `q` of the weight, the block product at
    (`p`, `q`) is the whole product at (`r`, `q`). -/
private theorem blockOfProduct50_1 (X : FVec Ideal S50000x256 .f32) (W : FVec Ideal S256x64 .f32)
    (x : FVec Ideal S5000x256 .f32) (w : FVec Ideal S256x64 .f32) (p : Fin 5000) (q : Fin 64) (r : Fin 50000)
    (hx : ∀ k : Fin 256, x (ix2 p k) = X (ix2 r k)) (hw : ∀ k : Fin 256, w (ix2 k q) = W (ix2 k q)) :
    k1_pay1 (F := Ideal) x w (ix2 p q) = Cert.Spec.proj50 (F := Ideal) X W (ix2 r q) := by
  rw [proj50_apply]
  refine (blockProduct_apply x w p q).trans (Finset.sum_congr rfl fun k _ => ?_)
  rw [hx k, hw k]

/-- The printed index maps of region 1, decided over the grid: at point `t` the table's window and the output's are at
    row block `t`, the weight's window at its one block. -/
private theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the projected table. -/
private theorem flushed1 (c : Dev nD) (t : Fin cfg1.N) :
    (dat1 (F := Ideal) V c).flushed 2 t
      = ((cfg1.win 2).blk t).view.read (Elt Ideal) (Cert.Spec.proj50 (F := Ideal) (V c main_arg1) (V c main_arg5)) := by
  show (cfg1.win 2).cut (grid1.coords t) ((dat1 V c).after 2 t) = _
  rw [after1_2]
  unfold out1_2
  rw [View.canon_unit_zero zeroOffset]
  simp only [View.ld_unit_zero (S := S5000x256) zeroOffset, View.ld_unit_zero (S := S256x64) zeroOffset]
  obtain ⟨e00, e01, e10, e11, e20, e21⟩ := blockIndex1 t
  have ht : t.val < 10 := t.isLt
  funext j
  obtain ⟨p, q, rfl⟩ : ∃ (p : Fin 5000) (q : Fin 64), j = ix2 p q := ⟨j 0, j 1, eq_ix2 j⟩
  have hr : t.val * 5000 + p.val < 50000 := by have := p.isLt; omega
  show k1_pay1 (F := Ideal) (iblk1 V c 0 t) (iblk1 V c 1 t) (ix2 p q)
    = Cert.Spec.proj50 (F := Ideal) (V c main_arg1) (V c main_arg5) (((cfg1.win 2).blk t).view.emb (ix2 p q))
  have e2 : ((cfg1.win 2).blk t).view.emb (ix2 p q) = ix2 (⟨t.val * 5000 + p.val, hr⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [e2]
  refine blockOfProduct50_1 _ _ (iblk1 V c 0 t) (iblk1 V c 1 t) p q _ (fun k => ?_) (fun k => ?_)
  · show V c main_arg1 (((cfg1.win 0).blk t).view.emb (ix2 p k)) = V c main_arg1 (ix2 (⟨t.val * 5000 + p.val, hr⟩ : Fin 50000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 256 + 1 * k.val = k.val; omega
  · show V c main_arg5 (((cfg1.win 1).blk t).view.emb (ix2 k q)) = V c main_arg5 (ix2 k q)
    refine congrArg _ (funext fun a => Fin.ext ?_)
    match a with
    | ⟨0, _⟩ => show win1_1.index t (0 : Fin 2) * 256 + 1 * k.val = k.val; omega
    | ⟨1, _⟩ => show win1_1.index t (1 : Fin 2) * 64 + 1 * q.val = q.val; omega

/-- An index of the projected table is in point `t`'s block iff each coordinate is in the block's range on its axis. -/
private theorem memBlock1 (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v1).slice (win1_2.rect t)).set ↔ _
  rw [View.set_slice_whole, Rect.mem_set_unit]
  exact Iff.rfl

/-- Every index of the projected table is in some point's block: row `r` is in the block of point `r / 5000`. -/
private theorem covered1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < 10; omega⟩, rfl⟩
  obtain ⟨-, -, -, -, e20, e21⟩ := blockIndex1 t
  refine ⟨t, flush1_2 t, ?_⟩
  rw [memBlock1]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- After region 1 its output array is the whole projected table. -/
theorem proj1 (c : Dev nD) :
    (dat1 (F := Ideal) V c).arrAt 2 cfg1.N = Cert.Spec.proj50 (F := Ideal) (V c main_arg1) (V c main_arg5) :=
  (dat1 (F := Ideal) V c).arrAt_eq_of_cover 2 (Cert.Spec.proj50 (F := Ideal) (V c main_arg1) (V c main_arg5))
    (fun t _ => flushed1 V c t) covered1

/-! ## Region 2: the other 50000-row table, likewise -/

/-- A block of the product is the product of the table's block of rows with the weight: where row `p` of the block is
    row `r` of the table and column `q` of the block's weight is column `q` of the weight, the block product at
    (`p`, `q`) is the whole product at (`r`, `q`). -/
private theorem blockOfProduct50_2 (X : FVec Ideal S50000x256 .f32) (W : FVec Ideal S256x64 .f32)
    (x : FVec Ideal S5000x256 .f32) (w : FVec Ideal S256x64 .f32) (p : Fin 5000) (q : Fin 64) (r : Fin 50000)
    (hx : ∀ k : Fin 256, x (ix2 p k) = X (ix2 r k)) (hw : ∀ k : Fin 256, w (ix2 k q) = W (ix2 k q)) :
    k2_pay1 (F := Ideal) x w (ix2 p q) = Cert.Spec.proj50 (F := Ideal) X W (ix2 r q) := by
  rw [proj50_apply]
  refine (blockProduct_apply x w p q).trans (Finset.sum_congr rfl fun k _ => ?_)
  rw [hx k, hw k]

/-- The printed index maps of region 2, decided over the grid: at point `t` the table's window and the output's are at
    row block `t`, the weight's window at its one block. -/
private theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the projected table. -/
private theorem flushed2 (c : Dev nD) (t : Fin cfg2.N) :
    (dat2 (F := Ideal) V c).flushed 2 t
      = ((cfg2.win 2).blk t).view.read (Elt Ideal) (Cert.Spec.proj50 (F := Ideal) (V c main_arg2) (V c main_arg6)) := by
  show (cfg2.win 2).cut (grid2.coords t) ((dat2 V c).after 2 t) = _
  rw [after2_2]
  unfold out2_2
  rw [View.canon_unit_zero zeroOffset]
  simp only [View.ld_unit_zero (S := S5000x256) zeroOffset, View.ld_unit_zero (S := S256x64) zeroOffset]
  obtain ⟨e00, e01, e10, e11, e20, e21⟩ := blockIndex2 t
  have ht : t.val < 10 := t.isLt
  funext j
  obtain ⟨p, q, rfl⟩ : ∃ (p : Fin 5000) (q : Fin 64), j = ix2 p q := ⟨j 0, j 1, eq_ix2 j⟩
  have hr : t.val * 5000 + p.val < 50000 := by have := p.isLt; omega
  show k2_pay1 (F := Ideal) (iblk2 V c 0 t) (iblk2 V c 1 t) (ix2 p q)
    = Cert.Spec.proj50 (F := Ideal) (V c main_arg2) (V c main_arg6) (((cfg2.win 2).blk t).view.emb (ix2 p q))
  have e2 : ((cfg2.win 2).blk t).view.emb (ix2 p q) = ix2 (⟨t.val * 5000 + p.val, hr⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [e2]
  refine blockOfProduct50_2 _ _ (iblk2 V c 0 t) (iblk2 V c 1 t) p q _ (fun k => ?_) (fun k => ?_)
  · show V c main_arg2 (((cfg2.win 0).blk t).view.emb (ix2 p k)) = V c main_arg2 (ix2 (⟨t.val * 5000 + p.val, hr⟩ : Fin 50000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 256 + 1 * k.val = k.val; omega
  · show V c main_arg6 (((cfg2.win 1).blk t).view.emb (ix2 k q)) = V c main_arg6 (ix2 k q)
    refine congrArg _ (funext fun a => Fin.ext ?_)
    match a with
    | ⟨0, _⟩ => show win2_1.index t (0 : Fin 2) * 256 + 1 * k.val = k.val; omega
    | ⟨1, _⟩ => show win2_1.index t (1 : Fin 2) * 64 + 1 * q.val = q.val; omega

/-- An index of the projected table is in point `t`'s block iff each coordinate is in the block's range on its axis. -/
private theorem memBlock2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v2).slice (win2_2.rect t)).set ↔ _
  rw [View.set_slice_whole, Rect.mem_set_unit]
  exact Iff.rfl

/-- Every index of the projected table is in some point's block: row `r` is in the block of point `r / 5000`. -/
private theorem covered2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, by show (i 0).val / 5000 < 10; omega⟩, rfl⟩
  obtain ⟨-, -, -, -, e20, e21⟩ := blockIndex2 t
  refine ⟨t, flush2_2 t, ?_⟩
  rw [memBlock2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- After region 2 its output array is the whole projected table. -/
theorem proj2 (c : Dev nD) :
    (dat2 (F := Ideal) V c).arrAt 2 cfg2.N = Cert.Spec.proj50 (F := Ideal) (V c main_arg2) (V c main_arg6) :=
  (dat2 (F := Ideal) V c).arrAt_eq_of_cover 2 (Cert.Spec.proj50 (F := Ideal) (V c main_arg2) (V c main_arg6))
    (fun t _ => flushed2 V c t) covered2

end Cert.KernelIdeal.ProjValue

end
-- ==== Proof.HeadValue.lean ====
import proofs.«410567_j58815282152044_2_alg».proof.Proof.Gen.KernelIdeal.Frame
import proofs.«410567_j58815282152044_2_alg».proof.Proof.Spec
import Idealize.ShloMosaic.Lib.Pipeline.Value
import Idealize.ShloMosaic.Lib.ValueIdx
import Idealize.ShloMosaic.Lib.IdealHost
import Idealize.ShloMosaic.Lib.KernelVsHost
import Idealize.ShloMosaic.Lib.StackMember
import Idealize.ShloMosaic.PureOps.Ideal.Laws

/- The last stage's output array is the specification's last stage of the arrays it reads.

   Point `t` of the grid of 125 reads rows 8000 t … 8000 t + 7999 of the four gathered 64-column arrays and the whole
   256 × 64 weight, and writes back rows 8000 t … 8000 t + 7999 of the output. An output entry at row `r`, column `q`
   is the rectified sum, over the 256 columns `k` of the four rows laid side by side, of piece `k / 64`'s entry at
   column `k % 64` times the weight's entry at (k, q): the same sum on both sides, term by term. The kernel rectifies
   on "above zero", the specification on "not below zero"; the two differ only at zero, where both give zero. The
   blocks of 8000 rows tile the million rows, so every output entry is written. -/
set_option maxRecDepth 16384

noncomputable section

namespace Cert.KernelIdeal.HeadValue

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

section Generic
variable {α : Type}

/-- Four 64-column pieces side by side, read at row `p` and column `64 i + c`: piece `i` at column `c`. -/
private theorem cat4_apply_of_eq {n : Nat}
    (h : Shape.Concatenates [(⟨2, ![n, 64]⟩ : Shape), ⟨2, ![n, 64]⟩, ⟨2, ![n, 64]⟩, ⟨2, ![n, 64]⟩] ⟨2, ![n, 256]⟩ 1)
    (x0 x1 x2 x3 : (⟨2, ![n, 64]⟩ : Shape).Idx → α) (p : Fin n) (k : Fin 256) (i : Fin 4) (c : Fin 64)
    (hk : k.val = 64 * i.val + c.val) :
    concatenate ⟨2, ![n, 256]⟩ 1 [⟨⟨2, ![n, 64]⟩, x0⟩, ⟨⟨2, ![n, 64]⟩, x1⟩, ⟨⟨2, ![n, 64]⟩, x2⟩, ⟨⟨2, ![n, 64]⟩, x3⟩] h (ix2 p k)
      = (![x0, x1, x2, x3] i) (ix2 p c) := by
  have off : ∀ b : Fin (⟨2, ![n, 64]⟩ : Shape).rank, b.cast (rfl : (⟨2, ![n, 64]⟩ : Shape).rank = (⟨2, ![n, 256]⟩ : Shape).rank) ≠ 1 →
      ((ix2 p c) b).val = ((ix2 p k) (b.cast rfl)).val := by
    intro b hb
    match b with
    | ⟨0, _⟩ => rfl
    | ⟨1, _⟩ => exact absurd rfl hb
  match i with
  | ⟨0, _⟩ =>
    exact concatenate_apply_piece 1 [⟨⟨2, ![n, 64]⟩, x0⟩, ⟨⟨2, ![n, 64]⟩, x1⟩, ⟨⟨2, ![n, 64]⟩, x2⟩, ⟨⟨2, ![n, 64]⟩, x3⟩] h (ix2 p k) 0
      (by simp) ⟨2, ![n, 64]⟩ x0 rfl rfl 0 rfl (ix2 p c) off (by show 0 + c.val = k.val; simp at hk; omega)
  | ⟨1, _⟩ =>
    exact concatenate_apply_piece 1 [⟨⟨2, ![n, 64]⟩, x0⟩, ⟨⟨2, ![n, 64]⟩, x1⟩, ⟨⟨2, ![n, 64]⟩, x2⟩, ⟨⟨2, ![n, 64]⟩, x3⟩] h (ix2 p k) 1
      (by simp) ⟨2, ![n, 64]⟩ x1 rfl rfl 64 rfl (ix2 p c) off (by show 64 + c.val = k.val; simp at hk; omega)
  | ⟨2, _⟩ =>
    exact concatenate_apply_piece 1 [⟨⟨2, ![n, 64]⟩, x0⟩, ⟨⟨2, ![n, 64]⟩, x1⟩, ⟨⟨2, ![n, 64]⟩, x2⟩, ⟨⟨2, ![n, 64]⟩, x3⟩] h (ix2 p k) 2
      (by simp) ⟨2, ![n, 64]⟩ x2 rfl rfl 128 rfl (ix2 p c) off (by show 128 + c.val = k.val; simp at hk; omega)
  | ⟨3, _⟩ =>
    exact concatenate_apply_piece 1 [⟨⟨2, ![n, 64]⟩, x0⟩, ⟨⟨2, ![n, 64]⟩, x1⟩, ⟨⟨2, ![n, 64]⟩, x2⟩, ⟨⟨2, ![n, 64]⟩, x3⟩] h (ix2 p k) 3
      (by simp) ⟨2, ![n, 64]⟩ x3 rfl rfl 192 rfl (ix2 p c) off (by show 192 + c.val = k.val; simp at hk; omega)

/-- A kernel's matrix product of an m × k by a k × n matrix into the zero splat, read at an index: the sum over the
    contracted coordinate of the products of the entries. -/
private theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- The rectifier's two spellings agree on the extended reals: "above zero" and "not below zero" differ only at zero,
    where either branch is zero. -/
private theorem leaky_ogt_eq_oge (s y : EReal) :
    Scalar.select (Ideal.cmp .ogt y 0) y (s * y) = Scalar.select (Ideal.cmp .oge y 0) y (s * y) := by
  unfold Ideal.cmp Scalar.select
  by_cases h : (0 : EReal) < y
  · simp [h, le_of_lt h]
  · by_cases h0 : (0 : EReal) ≤ y
    · have e : y = 0 := le_antisymm (not_lt.mp h) h0
      subst e
      simp
    · simp [h, h0]

/-- The row product over four 64-column pieces side by side: the sum, over the 256 columns, of the piece's entry
    times the weight's. -/
private def rowDot {n : Nat} (x0 x1 x2 x3 : (⟨2, ![n, 64]⟩ : Shape).Idx → EReal) (w : (⟨2, ![256, 64]⟩ : Shape).Idx → EReal)
    (p : Fin n) (q : Fin 64) : EReal :=
  ∑ k : Fin 256, (![x0, x1, x2, x3] ⟨k.val / 64, by have := k.isLt; omega⟩) (ix2 p ⟨k.val % 64, Nat.mod_lt _ (by decide)⟩)
    * w (ix2 k q)

/-- The sum over the columns of four pieces side by side, entry by entry times a weight, is the row product. -/
private theorem sum_cat4_eq_rowDot {n : Nat}
    (h : Shape.Concatenates [(⟨2, ![n, 64]⟩ : Shape), ⟨2, ![n, 64]⟩, ⟨2, ![n, 64]⟩, ⟨2, ![n, 64]⟩] ⟨2, ![n, 256]⟩ 1)
    (x0 x1 x2 x3 : (⟨2, ![n, 64]⟩ : Shape).Idx → EReal) (w : (⟨2, ![256, 64]⟩ : Shape).Idx → EReal)
    (p : Fin n) (q : Fin 64) :
    ∑ k : Fin 256, concatenate ⟨2, ![n, 256]⟩ 1
        [⟨⟨2, ![n, 64]⟩, x0⟩, ⟨⟨2, ![n, 64]⟩, x1⟩, ⟨⟨2, ![n, 64]⟩, x2⟩, ⟨⟨2, ![n, 64]⟩, x3⟩] h (ix2 p k) * w (ix2 k q)
      = rowDot x0 x1 x2 x3 w p q := by
  unfold rowDot
  refine Finset.sum_congr rfl fun k _ => ?_
  rw [cat4_apply_of_eq h x0 x1 x2 x3 p k ⟨k.val / 64, by have := k.isLt; omega⟩ ⟨k.val % 64, Nat.mod_lt _ (by decide)⟩
    (by show k.val = 64 * (k.val / 64) + k.val % 64; omega)]

/-- Two row products agree when the rows do, piece by piece, and the weights do. -/
private theorem rowDot_congr {n n' : Nat} (x0 x1 x2 x3 : (⟨2, ![n, 64]⟩ : Shape).Idx → EReal)
    (a0 a1 a2 a3 : (⟨2, ![n', 64]⟩ : Shape).Idx → EReal) (w w' : (⟨2, ![256, 64]⟩ : Shape).Idx → EReal)
    (p : Fin n) (r : Fin n') (q : Fin 64)
    (h0 : ∀ c : Fin 64, x0 (ix2 p c) = a0 (ix2 r c)) (h1 : ∀ c : Fin 64, x1 (ix2 p c) = a1 (ix2 r c))
    (h2 : ∀ c : Fin 64, x2 (ix2 p c) = a2 (ix2 r c)) (h3 : ∀ c : Fin 64, x3 (ix2 p c) = a3 (ix2 r c))
    (hw : ∀ k : Fin 256, w (ix2 k q) = w' (ix2 k q)) :
    rowDot x0 x1 x2 x3 w p q = rowDot a0 a1 a2 a3 w' r q := by
  unfold rowDot
  refine Finset.sum_congr rfl fun k _ => ?_
  have hk := k.isLt
  have e : ∀ (i : Fin 4) (c : Fin 64), (![x0, x1, x2, x3] i) (ix2 p c) = (![a0, a1, a2, a3] i) (ix2 r c) := by
    intro i c
    match i with
    | ⟨0, _⟩ => exact h0 c
    | ⟨1, _⟩ => exact h1 c
    | ⟨2, _⟩ => exact h2 c
    | ⟨3, _⟩ => exact h3 c
  rw [e, hw]

end Generic

variable (V : (c : Dev nD) → (b : Ref sig .tc) → Buf (Elt Ideal) ((c : Thread nD τ).loc b))

/-- The rectified value of a row product: itself where it is not below zero, the slope times it elsewhere. -/
private def rectified (y : EReal) : EReal := Scalar.select (Ideal.cmp .oge y 0) y (Ideal.ofBits .f32 0x3E4CCCCD#32 * y)

/-- The kernel's payload at row `p`, column `q` of its block: the rectified row product of the four loaded blocks
    with the loaded weight (the casts to the same shape and the narrowing are the identity, the matrix product into the
    zero splat is the sum over the 256 columns, and "above zero" rectifies as "not below zero" does). -/
private theorem payload_apply (x0 x1 x2 x3 : Vec Ideal S8000x64 .f32) (x4 : Vec Ideal S256x64 .f32) (p : Fin 8000) (q : Fin 64) :
    k3_pay1 (F := Ideal) x0 x1 x2 x3 x4 (ix2 p q) = rectified (rowDot x0 x1 x2 x3 x4 p q) := by
  unfold k3_pay1
  rw [shapeCast_self x0, shapeCast_self x1, shapeCast_self x2, shapeCast_self x3]
  rw [select_apply, cmpf_apply, mulf_apply, broadcast_apply, broadcast_apply]
  have hD : dot_S8000x256_S256x64_S8000x64_1_0_0_1_n_n = DotDims.plain 8000 256 64 := rfl
  rw [hD, matmul_plain_apply]
  simp only [truncf_apply]
  rw [sum_cat4_eq_rowDot]
  unfold rectified
  generalize rowDot x0 x1 x2 x3 x4 p q = y
  show Scalar.select (Ideal.cmp .ogt y (Ideal.ofBits .f32 0x00000000#32)) y (Ideal.ofBits .f32 0x3E4CCCCD#32 * y)
    = Scalar.select (Ideal.cmp .oge y 0) y (Ideal.ofBits .f32 0x3E4CCCCD#32 * y)
  rw [Ideal.ofBits_zero_f32, leaky_ogt_eq_oge]

/-- The specification's last stage at row `r`, column `q`: the rectified row product of the four gathered arrays
    with the weight. -/
private theorem head_apply (a b c d : FVec Ideal S1000000x64 .f32) (w : FVec Ideal S256x64 .f32) (r : Fin 1000000) (q : Fin 64) :
    Cert.Spec.head (F := Ideal) a b c d w (ix2 r q) = rectified (rowDot a b c d w r q) := by
  unfold Cert.Spec.head Cert.Spec.leaky Cert.Spec.cat
  rw [select_apply, cmpf_apply, mulf_apply, broadcastInDim_scalar_apply, broadcastInDim_scalar_apply]
  have hD : Cert.ReferenceIdeal.dot_S1000000x256_S256x64_S1000000x64_1_0_0_1_n_n = DotDims.plain 1000000 256 64 := rfl
  rw [hD, StackMember.dotGeneral_plain_apply, sum_cat4_eq_rowDot]
  unfold rectified
  generalize rowDot a b c d w r q = y
  show Scalar.select (Ideal.cmp .oge y (Ideal.ofBits .f32 0x00000000#32)) y (Ideal.ofBits .f32 0x3E4CCCCD#32 * y) = _
  rw [Ideal.ofBits_zero_f32]

/-- The payload on blocks that are rows `r` of four arrays and a weight that is the whole weight is the specification
    at row `r`. -/
private theorem payload_eq_head (x0 x1 x2 x3 : Vec Ideal S8000x64 .f32) (x4 : Vec Ideal S256x64 .f32)
    (a b c d : FVec Ideal S1000000x64 .f32) (w : FVec Ideal S256x64 .f32) (p : Fin 8000) (q : Fin 64) (r : Fin 1000000)
    (h0 : ∀ e : Fin 64, x0 (ix2 p e) = a (ix2 r e)) (h1 : ∀ e : Fin 64, x1 (ix2 p e) = b (ix2 r e))
    (h2 : ∀ e : Fin 64, x2 (ix2 p e) = c (ix2 r e)) (h3 : ∀ e : Fin 64, x3 (ix2 p e) = d (ix2 r e))
    (h4 : ∀ k : Fin 256, x4 (ix2 k q) = w (ix2 k q)) :
    k3_pay1 (F := Ideal) x0 x1 x2 x3 x4 (ix2 p q) = Cert.Spec.head (F := Ideal) a b c d w (ix2 r q) := by
  rw [payload_apply, head_apply, rowDot_congr x0 x1 x2 x3 a b c d x4 w p r q h0 h1 h2 h3 h4]

/-- The origin of a rank-2 rectangle, as the constant function. -/
private theorem origin_eq_zero : (![0, 0] : Fin 2 → Nat) = fun _ => 0 := funext fun a => by fin_cases a <;> rfl

/-- The printed index maps, decided over the grid: at point `t` each of the four gathered arrays' windows and the
    output's window is at block `t` of the rows and block 0 of the columns, the weight's window at block 0 of both. -/
private theorem block_indices : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of the specification's last stage of the arrays the region finds: the
    body's store is the payload of the loaded blocks, block row `p` of every row window is array row `8000 t + p`, and the
    weight's block is the whole weight. -/
private theorem written_back_eq_head (c : Dev nD) (t : Fin cfg3.N) :
    (dat3 (F := Ideal) V c).flushed 5 t = ((cfg3.win 5).blk t).view.read (Elt Ideal)
      (Cert.Spec.head (F := Ideal) (V c main_v3) (V c main_v4) (V c main_v5) (V c main_v6) (V c main_arg8)) := by
  show (cfg3.win 5).cut (grid3.coords t) ((dat3 (F := Ideal) V c).after 5 t) = _
  rw [after3_5]
  unfold out3_5
  rw [View.canon_unit_zero origin_eq_zero]
  simp only [View.ld_unit_zero (S := S8000x64) origin_eq_zero, View.ld_unit_zero (S := S256x64) origin_eq_zero]
  obtain ⟨f00, f01, f10, f11, f20, f21, f30, f31, f40, f41, f50, f51⟩ := block_indices t
  have ht : t.val < 125 := t.isLt
  funext j
  obtain ⟨p, q, rfl⟩ : ∃ (p : Fin 8000) (q : Fin 64), j = ix2 p q := ⟨j 0, j 1, eq_ix2 j⟩
  have hp := p.isLt
  show k3_pay1 (F := Ideal) (iblk3 V c 0 t) (iblk3 V c 1 t) (iblk3 V c 2 t) (iblk3 V c 3 t) (iblk3 V c 4 t) (ix2 p q)
    = Cert.Spec.head (F := Ideal) (V c main_v3) (V c main_v4) (V c main_v5) (V c main_v6) (V c main_arg8)
        (((cfg3.win 5).blk t).view.emb (ix2 p q))
  have emb5 : ((cfg3.win 5).blk t).view.emb (ix2 p q) = ix2 (⟨t.val * 8000 + p.val, by omega⟩ : Fin 1000000) q := by
    funext a; apply Fin.ext
    match a with
    | ⟨0, _⟩ => show win3_5.index t (0 : Fin 2) * 8000 + 1 * p.val = t.val * 8000 + p.val; omega
    | ⟨1, _⟩ => show win3_5.index t (1 : Fin 2) * 64 + 1 * q.val = q.val; omega
  rw [emb5]
  refine payload_eq_head _ _ _ _ _ _ _ _ _ _ p q _ ?_ ?_ ?_ ?_ ?_
  · intro e
    show V c main_v3 (((cfg3.win 0).blk t).view.emb (ix2 p e)) = V c main_v3 (ix2 (⟨t.val * 8000 + p.val, by omega⟩ : Fin 1000000) e)
    refine congrArg (V c main_v3) ?_
    funext a; apply Fin.ext
    match a with
    | ⟨0, _⟩ => show win3_0.index t (0 : Fin 2) * 8000 + 1 * p.val = t.val * 8000 + p.val; omega
    | ⟨1, _⟩ => show win3_0.index t (1 : Fin 2) * 64 + 1 * e.val = e.val; omega
  · intro e
    show V c main_v4 (((cfg3.win 1).blk t).view.emb (ix2 p e)) = V c main_v4 (ix2 (⟨t.val * 8000 + p.val, by omega⟩ : Fin 1000000) e)
    refine congrArg (V c main_v4) ?_
    funext a; apply Fin.ext
    match a with
    | ⟨0, _⟩ => show win3_1.index t (0 : Fin 2) * 8000 + 1 * p.val = t.val * 8000 + p.val; omega
    | ⟨1, _⟩ => show win3_1.index t (1 : Fin 2) * 64 + 1 * e.val = e.val; omega
  · intro e
    show V c main_v5 (((cfg3.win 2).blk t).view.emb (ix2 p e)) = V c main_v5 (ix2 (⟨t.val * 8000 + p.val, by omega⟩ : Fin 1000000) e)
    refine congrArg (V c main_v5) ?_
    funext a; apply Fin.ext
    match a with
    | ⟨0, _⟩ => show win3_2.index t (0 : Fin 2) * 8000 + 1 * p.val = t.val * 8000 + p.val; omega
    | ⟨1, _⟩ => show win3_2.index t (1 : Fin 2) * 64 + 1 * e.val = e.val; omega
  · intro e
    show V c main_v6 (((cfg3.win 3).blk t).view.emb (ix2 p e)) = V c main_v6 (ix2 (⟨t.val * 8000 + p.val, by omega⟩ : Fin 1000000) e)
    refine congrArg (V c main_v6) ?_
    funext a; apply Fin.ext
    match a with
    | ⟨0, _⟩ => show win3_3.index t (0 : Fin 2) * 8000 + 1 * p.val = t.val * 8000 + p.val; omega
    | ⟨1, _⟩ => show win3_3.index t (1 : Fin 2) * 64 + 1 * e.val = e.val; omega
  · intro k
    show V c main_arg8 (((cfg3.win 4).blk t).view.emb (ix2 k q)) = V c main_arg8 (ix2 k q)
    refine congrArg (V c main_arg8) ?_
    funext a; apply Fin.ext
    match a with
    | ⟨0, _⟩ => show win3_4.index t (0 : Fin 2) * 256 + 1 * k.val = k.val; omega
    | ⟨1, _⟩ => show win3_4.index t (1 : Fin 2) * 64 + 1 * q.val = q.val; omega

/-- An index of the output array is in point `t`'s block iff each coordinate is in the block's range on its axis. -/
private theorem mem_out_block_iff (t : Fin cfg3.N) (i : S1000000x64.Idx) :
    i ∈ ((cfg3.win 5).blk t).view.set ↔ ∀ a : Fin 2, win3_5.index t a * S8000x64.size a ≤ (i a).val
      ∧ (i a).val < win3_5.index t a * S8000x64.size a + S8000x64.size a := by
  show i ∈ ((View.whole main_v7).slice (win3_5.rect t)).set ↔ _
  rw [View.set_slice_whole, Rect.mem_set_unit]
  exact Iff.rfl

/-- Every index of the output array is in some point's block: row `r` in the block of point `r / 8000`. -/
private theorem out_blocks_cover (i : S1000000x64.Idx) :
    ∃ t : Fin cfg3.N, (cfg3.win 5).flush t = true ∧ i ∈ ((cfg3.win 5).blk t).view.set := by
  have hi0 : (i 0).val < 1000000 := (i 0).isLt
  have hi1 : (i 1).val < 64 := (i 1).isLt
  obtain ⟨t, ht⟩ : ∃ t : Fin cfg3.N, t.val = (i 0).val / 8000 :=
    ⟨⟨(i 0).val / 8000, by show (i 0).val / 8000 < 125; omega⟩, rfl⟩
  obtain ⟨-, -, -, -, -, -, -, -, -, -, f50, f51⟩ := block_indices t
  refine ⟨t, flush3_5 t, ?_⟩
  rw [mem_out_block_iff]
  intro a
  match a with
  | ⟨0, _⟩ =>
    show win3_5.index t (0 : Fin 2) * 8000 ≤ (i 0).val ∧ (i 0).val < win3_5.index t (0 : Fin 2) * 8000 + 8000
    omega
  | ⟨1, _⟩ =>
    show win3_5.index t (1 : Fin 2) * 64 ≤ (i 1).val ∧ (i 1).val < win3_5.index t (1 : Fin 2) * 64 + 64
    omega

theorem out (c : Dev nD) :
    (dat3 (F := Ideal) V c).arrAt 5 cfg3.N
      = Cert.Spec.head (F := Ideal) (V c main_v3) (V c main_v4) (V c main_v5) (V c main_v6) (V c main_arg8) :=
  (dat3 (F := Ideal) V c).arrAt_eq_of_cover 5
    (Cert.Spec.head (F := Ideal) (V c main_v3) (V c main_v4) (V c main_v5) (V c main_v6) (V c main_arg8))
    (fun t _ => written_back_eq_head V c t) out_blocks_cover

end Cert.KernelIdeal.HeadValue

end
-- ==== Proof.Takes.lean ====
import proofs.«410567_j58815282152044_2_alg».proof.KernelIdeal
import proofs.«410567_j58815282152044_2_alg».proof.Proof.Gen.KernelIdeal
import proofs.«410567_j58815282152044_2_alg».proof.Proof.Spec
import Idealize.ShloMosaic.Lib.Pipeline.Value
import Idealize.ShloMosaic.Lib.ValueIdx
import Idealize.ShloMosaic.Lib.ReduceAll

set_option maxRecDepth 16384

noncomputable section

namespace Cert.KernelIdeal.Takes

open Idealize.ShloMosaic Cert.KernelIdeal
open Cert.KernelIdeal.Facts₀

variable {F : FTy → Type} [FloatOps F]

/-- The row gather as the kernel's program spells it: the index read as NumPy reads it, the rows gathered, and a row
    whose index falls outside the table replaced by the quiet NaN word. -/
def take100 (tbl : FVec F S100000x64 .f32) (idx : IVec S1000000 32) : FVec F S1000000x64 .f32 :=
  select
    (broadcastInDim S1000000x64 ![0] bcast_S1000000_S1000000x64_0
      (Host.reduce IntOp.andi
        (andi
          (cmpi .sge
            (broadcastInDim S1000000x1 ![0] bcast_S1000000_S1000000x1_0
              (select (cmpi .slt idx (broadcastInDim S1000000 ![] bcast_S_S1000000 (constantI S_ 32 0#32)))
                (addi idx (broadcastInDim S1000000 ![] bcast_S_S1000000 (constantI S_ 32 100000#32))) idx))
            (broadcastInDim S1000000x1 ![] bcast_S_S1000000x1 (constantI S_ 32 0#32)))
          (cmpi .sle
            (broadcastInDim S1000000x1 ![0] bcast_S1000000_S1000000x1_0
              (select (cmpi .slt idx (broadcastInDim S1000000 ![] bcast_S_S1000000 (constantI S_ 32 0#32)))
                (addi idx (broadcastInDim S1000000 ![] bcast_S_S1000000 (constantI S_ 32 100000#32))) idx))
            (broadcastInDim S1000000x1 ![0, 1] bcast_S1x1_S1000000x1_0_1
              (broadcastInDim S1x1 ![1] bcast_S1_S1x1_1 (constantI S1 32 99999#32)))))
        (constantI S_ 1 1#1) reducesTo_S1000000x1_S1000000_d1 h_S_))
    (Host.gather gather_S100000x64_S1000000x1_S1000000x64_1_0_n_n_0_1_164 tbl
      (broadcastInDim S1000000x1 ![0] bcast_S1000000_S1000000x1_0
        (select (cmpi .slt idx (broadcastInDim S1000000 ![] bcast_S_S1000000 (constantI S_ 32 0#32)))
          (addi idx (broadcastInDim S1000000 ![] bcast_S_S1000000 (constantI S_ 32 100000#32))) idx)))
    (broadcastInDim S1000000x64 ![] bcast_S_S1000000x64 (constant S_ .f32 0x7FC00000#32))

/-- The same over a 50000-row table. -/
def take50 (tbl : FVec F S50000x64 .f32) (idx : IVec S1000000 32) : FVec F S1000000x64 .f32 :=
  select
    (broadcastInDim S1000000x64 ![0] bcast_S1000000_S1000000x64_0
      (Host.reduce IntOp.andi
        (andi
          (cmpi .sge
            (broadcastInDim S1000000x1 ![0] bcast_S1000000_S1000000x1_0
              (select (cmpi .slt idx (broadcastInDim S1000000 ![] bcast_S_S1000000 (constantI S_ 32 0#32)))
                (addi idx (broadcastInDim S1000000 ![] bcast_S_S1000000 (constantI S_ 32 50000#32))) idx))
            (broadcastInDim S1000000x1 ![] bcast_S_S1000000x1 (constantI S_ 32 0#32)))
          (cmpi .sle
            (broadcastInDim S1000000x1 ![0] bcast_S1000000_S1000000x1_0
              (select (cmpi .slt idx (broadcastInDim S1000000 ![] bcast_S_S1000000 (constantI S_ 32 0#32)))
                (addi idx (broadcastInDim S1000000 ![] bcast_S_S1000000 (constantI S_ 32 50000#32))) idx))
            (broadcastInDim S1000000x1 ![0, 1] bcast_S1x1_S1000000x1_0_1
              (broadcastInDim S1x1 ![1] bcast_S1_S1x1_1 (constantI S1 32 49999#32)))))
        (constantI S_ 1 1#1) reducesTo_S1000000x1_S1000000_d1 h_S_))
    (Host.gather gather_S50000x64_S1000000x1_S1000000x64_1_0_n_n_0_1_164 tbl
      (broadcastInDim S1000000x1 ![0] bcast_S1000000_S1000000x1_0
        (select (cmpi .slt idx (broadcastInDim S1000000 ![] bcast_S_S1000000 (constantI S_ 32 0#32)))
          (addi idx (broadcastInDim S1000000 ![] bcast_S_S1000000 (constantI S_ 32 50000#32))) idx)))
    (broadcastInDim S1000000x64 ![] bcast_S_S1000000x64 (constant S_ .f32 0x7FC00000#32))

/-- A left fold by `and` from 1 over words that are all 1 is 1. -/
private theorem foldl_andi_all_one {ι : Type} (f : ι → BitVec 1) (hf : ∀ n, f n = 1#1) :
    ∀ l : List ι, l.foldl (fun r n => IntOp.andi r (f n)) 1#1 = 1#1
  | [] => rfl
  | a :: l => by
    have h1 : IntOp.andi (1#1) (1#1) = 1#1 := by decide
    rw [List.foldl_cons, hf a, h1]
    exact foldl_andi_all_one f hf l

/-- A reduction by `and` from an initial value that is 1, over an array that is 1 everywhere, is 1 at every result
    index. -/
private theorem reduce_andi_all_one {s t u : Shape} {axes : List (Fin s.rank)} (x : s.Idx → BitVec 1)
    (init : u.Idx → BitVec 1) (h : s.ReducesTo axes t) (hu : 0 < u.numel) (hinit : ∀ k, init k = 1#1)
    (hx : ∀ i, x i = 1#1) (j : t.Idx) : Host.reduce IntOp.andi x init h hu j = 1#1 := by
  rw [Host.reduce_eq_foldl, hinit]
  exact foldl_andi_all_one x hx _

/-- A selection whose condition is 1 everywhere is its first branch. -/
private theorem select_all_one {α : Type} {s t : Shape} {dims : Fin s.rank → Fin t.rank} (hb : s.BroadcastsInDim t dims)
    (m : IVec s 1) (hm : ∀ j, m j = 1#1) (g nan : t.Idx → α) :
    select (broadcastInDim t dims hb m) g nan = g := by
  funext j
  show Scalar.select (m _) (g j) (nan j) = g j
  rw [hm]
  rfl

/-- Where every index names a row of the table, the guarded gather is the plain gather of the wrapped indices. -/
theorem take100_eq (tbl : FVec F S100000x64 .f32) (idx : IVec S1000000 32)
    (h : Cert.Spec.InRows 100000#32 99999#32 idx) :
    take100 tbl idx = Cert.Spec.pick100 tbl (Cert.Spec.rows 100000#32 idx) := by
  unfold take100
  refine Eq.trans (select_all_one _ _ ?_ _ _) ?_
  · intro j
    refine reduce_andi_all_one _ _ _ _ (fun _ => rfl) (fun i => ?_) j
    exact h _
  · rfl

theorem take50_eq (tbl : FVec F S50000x64 .f32) (idx : IVec S1000000 32)
    (h : Cert.Spec.InRows 50000#32 49999#32 idx) :
    take50 tbl idx = Cert.Spec.pick50 tbl (Cert.Spec.rows 50000#32 idx) := by
  unfold take50
  refine Eq.trans (select_all_one _ _ ?_ _ _) ?_
  · intro j
    refine reduce_andi_all_one _ _ _ _ (fun _ => rfl) (fun i => ?_) j
    exact h _
  · rfl

end Cert.KernelIdeal.Takes

end
-- ==== Proof.TakesRun.lean ====
import proofs.«410567_j58815282152044_2_alg».proof.Proof.Gen.KernelIdeal.Frame
import proofs.«410567_j58815282152044_2_alg».proof.Proof.Takes
import Idealize.ShloMosaic.Lib.StableHlo.Run

set_option maxRecDepth 16384

noncomputable section

namespace Cert.KernelIdeal.TakesRun

open Cert.KernelIdeal Cert.KernelIdeal.Gen
open Idealize.ShloMosaic Idealize.ShloMosaic.TcCoe Idealize.ShloMosaic.Tactic
open Idealize.SL.Sem
open Idealize.ShloMosaic.Pipeline (Dat Cfg Window)

open Cert.KernelIdeal.Takes

variable {F : FTy → Type} [FloatOps F]

/-- A value stored at a typed reference and read back at its type is itself. -/
private theorem ofBuf_toBuf {T : BufTy} (x : StableHlo.TRef sig T) (v : T.Contents (Elt F)) :
    x.ofBuf (Val := Elt F) (x.toBuf v) = v := by
  simp only [StableHlo.TRef.ofBuf, StableHlo.TRef.toBuf, cast_cast, cast_eq]

/-! ## Each stretch, from any contents: its last operation's result is the guarded gather of what the stretch
    found in the table's and the index array's buffers -/

private theorem run3 (V : Valuation τ sig (Elt F)) :
    StableHlo.after hostOps3 V (Proc.devRef .tc main_v3)
      = take100 (V (Proc.devRef .tc main_v0)) (V (Proc.devRef .tc main_arg9)) := by
  have eT : ∀ h1 h2 h3, (StableHlo.TRef.of main_v0 h1 h2 h3 : StableHlo.TRef sig ⟨S100000x64, .f32⟩).ofBuf
      (V (Proc.devRef .tc main_v0)) = V (Proc.devRef .tc main_v0) := fun _ _ _ => rfl
  have eI : ∀ h1 h2 h3, (StableHlo.TRef.of main_arg9 h1 h2 h3 : StableHlo.TRef sig ⟨S1000000, .i32⟩).ofBuf
      (V (Proc.devRef .tc main_arg9)) = V (Proc.devRef .tc main_arg9) := fun _ _ _ => rfl
  have eO : ∀ h1 h2 h3 (X : FVec F S1000000x64 .f32),
      (StableHlo.TRef.of main_v3 h1 h2 h3 : StableHlo.TRef sig ⟨S1000000x64, .f32⟩).toBuf (Val := Elt F) X = X :=
    fun _ _ _ _ => rfl
  dsimp only [hostOps3]
  after_results_simp
  simp only [ofBuf_toBuf, eT, eI, eO]
  rfl

private theorem run3_1 (V : Valuation τ sig (Elt F)) :
    StableHlo.after hostOps3_1 V (Proc.devRef .tc main_v4)
      = take100 (V (Proc.devRef .tc main_v0)) (V (Proc.devRef .tc main_arg10)) := by
  have eT : ∀ h1 h2 h3, (StableHlo.TRef.of main_v0 h1 h2 h3 : StableHlo.TRef sig ⟨S100000x64, .f32⟩).ofBuf
      (V (Proc.devRef .tc main_v0)) = V (Proc.devRef .tc main_v0) := fun _ _ _ => rfl
  have eI : ∀ h1 h2 h3, (StableHlo.TRef.of main_arg10 h1 h2 h3 : StableHlo.TRef sig ⟨S1000000, .i32⟩).ofBuf
      (V (Proc.devRef .tc main_arg10)) = V (Proc.devRef .tc main_arg10) := fun _ _ _ => rfl
  have eO : ∀ h1 h2 h3 (X : FVec F S1000000x64 .f32),
      (StableHlo.TRef.of main_v4 h1 h2 h3 : StableHlo.TRef sig ⟨S1000000x64, .f32⟩).toBuf (Val := Elt F) X = X :=
    fun _ _ _ _ => rfl
  dsimp only [hostOps3_1]
  after_results_simp
  simp only [ofBuf_toBuf, eT, eI, eO]
  rfl

private theorem run3_2 (V : Valuation τ sig (Elt F)) :
    StableHlo.after hostOps3_2 V (Proc.devRef .tc main_v5)
      = take50 (V (Proc.devRef .tc main_v1)) (V (Proc.devRef .tc main_arg11)) := by
  have eT : ∀ h1 h2 h3, (StableHlo.TRef.of main_v1 h1 h2 h3 : StableHlo.TRef sig ⟨S50000x64, .f32⟩).ofBuf
      (V (Proc.devRef .tc main_v1)) = V (Proc.devRef .tc main_v1) := fun _ _ _ => rfl
  have eI : ∀ h1 h2 h3, (StableHlo.TRef.of main_arg11 h1 h2 h3 : StableHlo.TRef sig ⟨S1000000, .i32⟩).ofBuf
      (V (Proc.devRef .tc main_arg11)) = V (Proc.devRef .tc main_arg11) := fun _ _ _ => rfl
  have eO : ∀ h1 h2 h3 (X : FVec F S1000000x64 .f32),
      (StableHlo.TRef.of main_v5 h1 h2 h3 : StableHlo.TRef sig ⟨S1000000x64, .f32⟩).toBuf (Val := Elt F) X = X :=
    fun _ _ _ _ => rfl
  dsimp only [hostOps3_2]
  after_results_simp
  simp only [ofBuf_toBuf, eT, eI, eO]
  rfl

private theorem run3_3 (V : Valuation τ sig (Elt F)) :
    StableHlo.after hostOps3_3 V (Proc.devRef .tc main_v6)
      = take50 (V (Proc.devRef .tc main_v2)) (V (Proc.devRef .tc main_arg12)) := by
  have eT : ∀ h1 h2 h3, (StableHlo.TRef.of main_v2 h1 h2 h3 : StableHlo.TRef sig ⟨S50000x64, .f32⟩).ofBuf
      (V (Proc.devRef .tc main_v2)) = V (Proc.devRef .tc main_v2) := fun _ _ _ => rfl
  have eI : ∀ h1 h2 h3, (StableHlo.TRef.of main_arg12 h1 h2 h3 : StableHlo.TRef sig ⟨S1000000, .i32⟩).ofBuf
      (V (Proc.devRef .tc main_arg12)) = V (Proc.devRef .tc main_arg12) := fun _ _ _ => rfl
  have eO : ∀ h1 h2 h3 (X : FVec F S1000000x64 .f32),
      (StableHlo.TRef.of main_v6 h1 h2 h3 : StableHlo.TRef sig ⟨S1000000x64, .f32⟩).toBuf (Val := Elt F) X = X :=
    fun _ _ _ _ => rfl
  dsimp only [hostOps3_3]
  after_results_simp
  simp only [ofBuf_toBuf, eT, eI, eO]
  rfl

/-! ## The buffers a stretch does not write -/

/-- No operation of a stretch writes the buffer: one inequality of references per operation. -/
local macro "unwritten" : tactic => `(tactic|
  (simp only [hostOps3, hostOps3_1, hostOps3_2, hostOps3_3, List.Forall, StableHlo.nullary_writes,
     StableHlo.unary_writes, StableHlo.binary_writes, StableHlo.ternary_writes, Finset.mem_singleton]
   repeat' apply And.intro
   all_goals exact StableHlo.devRef_ne_of_ne (by decide)))

private theorem keep1_v3 (V : Valuation τ sig (Elt F)) :
    StableHlo.after hostOps3_1 V (Proc.devRef .tc main_v3) = V (Proc.devRef .tc main_v3) :=
  StableHlo.after_of_forall_not_mem (b := Proc.devRef .tc main_v3) _ _ (List.forall_iff_forall_mem.mp (by unwritten))

private theorem keep2_v3 (V : Valuation τ sig (Elt F)) :
    StableHlo.after hostOps3_2 V (Proc.devRef .tc main_v3) = V (Proc.devRef .tc main_v3) :=
  StableHlo.after_of_forall_not_mem (b := Proc.devRef .tc main_v3) _ _ (List.forall_iff_forall_mem.mp (by unwritten))

private theorem keep3_v3 (V : Valuation τ sig (Elt F)) :
    StableHlo.after hostOps3_3 V (Proc.devRef .tc main_v3) = V (Proc.devRef .tc main_v3) :=
  StableHlo.after_of_forall_not_mem (b := Proc.devRef .tc main_v3) _ _ (List.forall_iff_forall_mem.mp (by unwritten))

private theorem keep2_v4 (V : Valuation τ sig (Elt F)) :
    StableHlo.after hostOps3_2 V (Proc.devRef .tc main_v4) = V (Proc.devRef .tc main_v4) :=
  StableHlo.after_of_forall_not_mem (b := Proc.devRef .tc main_v4) _ _ (List.forall_iff_forall_mem.mp (by unwritten))

private theorem keep3_v4 (V : Valuation τ sig (Elt F)) :
    StableHlo.after hostOps3_3 V (Proc.devRef .tc main_v4) = V (Proc.devRef .tc main_v4) :=
  StableHlo.after_of_forall_not_mem (b := Proc.devRef .tc main_v4) _ _ (List.forall_iff_forall_mem.mp (by unwritten))

private theorem keep0_v0 (V : Valuation τ sig (Elt F)) :
    StableHlo.after hostOps3 V (Proc.devRef .tc main_v0) = V (Proc.devRef .tc main_v0) :=
  StableHlo.after_of_forall_not_mem (b := Proc.devRef .tc main_v0) _ _ (List.forall_iff_forall_mem.mp (by unwritten))

private theorem keep0_arg10 (V : Valuation τ sig (Elt F)) :
    StableHlo.after hostOps3 V (Proc.devRef .tc main_arg10) = V (Proc.devRef .tc main_arg10) :=
  StableHlo.after_of_forall_not_mem (b := Proc.devRef .tc main_arg10) _ _ (List.forall_iff_forall_mem.mp (by unwritten))

private theorem keep3_v5 (V : Valuation τ sig (Elt F)) :
    StableHlo.after hostOps3_3 V (Proc.devRef .tc main_v5) = V (Proc.devRef .tc main_v5) :=
  StableHlo.after_of_forall_not_mem (b := Proc.devRef .tc main_v5) _ _ (List.forall_iff_forall_mem.mp (by unwritten))

private theorem keep0_v1 (V : Valuation τ sig (Elt F)) :
    StableHlo.after hostOps3 V (Proc.devRef .tc main_v1) = V (Proc.devRef .tc main_v1) :=
  StableHlo.after_of_forall_not_mem (b := Proc.devRef .tc main_v1) _ _ (List.forall_iff_forall_mem.mp (by unwritten))

private theorem keep1_v1 (V : Valuation τ sig (Elt F)) :
    StableHlo.after hostOps3_1 V (Proc.devRef .tc main_v1) = V (Proc.devRef .tc main_v1) :=
  StableHlo.after_of_forall_not_mem (b := Proc.devRef .tc main_v1) _ _ (List.forall_iff_forall_mem.mp (by unwritten))

private theorem keep0_arg11 (V : Valuation τ sig (Elt F)) :
    StableHlo.after hostOps3 V (Proc.devRef .tc main_arg11) = V (Proc.devRef .tc main_arg11) :=
  StableHlo.after_of_forall_not_mem (b := Proc.devRef .tc main_arg11) _ _ (List.forall_iff_forall_mem.mp (by unwritten))

private theorem keep1_arg11 (V : Valuation τ sig (Elt F)) :
    StableHlo.after hostOps3_1 V (Proc.devRef .tc main_arg11) = V (Proc.devRef .tc main_arg11) :=
  StableHlo.after_of_forall_not_mem (b := Proc.devRef .tc main_arg11) _ _ (List.forall_iff_forall_mem.mp (by unwritten))

private theorem keep0_v2 (V : Valuation τ sig (Elt F)) :
    StableHlo.after hostOps3 V (Proc.devRef .tc main_v2) = V (Proc.devRef .tc main_v2) :=
  StableHlo.after_of_forall_not_mem (b := Proc.devRef .tc main_v2) _ _ (List.forall_iff_forall_mem.mp (by unwritten))

private theorem keep1_v2 (V : Valuation τ sig (Elt F)) :
    StableHlo.after hostOps3_1 V (Proc.devRef .tc main_v2) = V (Proc.devRef .tc main_v2) :=
  StableHlo.after_of_forall_not_mem (b := Proc.devRef .tc main_v2) _ _ (List.forall_iff_forall_mem.mp (by unwritten))

private theorem keep2_v2 (V : Valuation τ sig (Elt F)) :
    StableHlo.after hostOps3_2 V (Proc.devRef .tc main_v2) = V (Proc.devRef .tc main_v2) :=
  StableHlo.after_of_forall_not_mem (b := Proc.devRef .tc main_v2) _ _ (List.forall_iff_forall_mem.mp (by unwritten))

private theorem keep0_arg12 (V : Valuation τ sig (Elt F)) :
    StableHlo.after hostOps3 V (Proc.devRef .tc main_arg12) = V (Proc.devRef .tc main_arg12) :=
  StableHlo.after_of_forall_not_mem (b := Proc.devRef .tc main_arg12) _ _ (List.forall_iff_forall_mem.mp (by unwritten))

private theorem keep1_arg12 (V : Valuation τ sig (Elt F)) :
    StableHlo.after hostOps3_1 V (Proc.devRef .tc main_arg12) = V (Proc.devRef .tc main_arg12) :=
  StableHlo.after_of_forall_not_mem (b := Proc.devRef .tc main_arg12) _ _ (List.forall_iff_forall_mem.mp (by unwritten))

private theorem keep2_arg12 (V : Valuation τ sig (Elt F)) :
    StableHlo.after hostOps3_2 V (Proc.devRef .tc main_arg12) = V (Proc.devRef .tc main_arg12) :=
  StableHlo.after_of_forall_not_mem (b := Proc.devRef .tc main_arg12) _ _ (List.forall_iff_forall_mem.mp (by unwritten))

private theorem keep0_arg8 (V : Valuation τ sig (Elt F)) :
    StableHlo.after hostOps3 V (Proc.devRef .tc main_arg8) = V (Proc.devRef .tc main_arg8) :=
  StableHlo.after_of_forall_not_mem (b := Proc.devRef .tc main_arg8) _ _ (List.forall_iff_forall_mem.mp (by unwritten))

private theorem keep1_arg8 (V : Valuation τ sig (Elt F)) :
    StableHlo.after hostOps3_1 V (Proc.devRef .tc main_arg8) = V (Proc.devRef .tc main_arg8) :=
  StableHlo.after_of_forall_not_mem (b := Proc.devRef .tc main_arg8) _ _ (List.forall_iff_forall_mem.mp (by unwritten))

private theorem keep2_arg8 (V : Valuation τ sig (Elt F)) :
    StableHlo.after hostOps3_2 V (Proc.devRef .tc main_arg8) = V (Proc.devRef .tc main_arg8) :=
  StableHlo.after_of_forall_not_mem (b := Proc.devRef .tc main_arg8) _ _ (List.forall_iff_forall_mem.mp (by unwritten))

private theorem keep3_arg8 (V : Valuation τ sig (Elt F)) :
    StableHlo.after hostOps3_3 V (Proc.devRef .tc main_arg8) = V (Proc.devRef .tc main_arg8) :=
  StableHlo.after_of_forall_not_mem (b := Proc.devRef .tc main_arg8) _ _ (List.forall_iff_forall_mem.mp (by unwritten))

variable (m : (ℓ : Loc nD τ sig) → Buf (Elt F) ℓ) (ρ : Dev nD → PrngReg)

/-- The four host stretches between the projections and the last region are the four guarded row gathers: at the
    last region's entry each gathered array is the gather of a projected table as the third region left it. -/
theorem W7_v3 (c : Dev nD) :
    W7 m ρ c (Proc.devRef .tc main_v3)
      = take100 (W3 m ρ c (Proc.devRef .tc main_v0)) (W3 m ρ c (Proc.devRef .tc main_arg9)) :=
  calc W7 m ρ c (Proc.devRef .tc main_v3)
    _ = W6 m ρ c (Proc.devRef .tc main_v3) := keep3_v3 (W6 m ρ c)
    _ = W5 m ρ c (Proc.devRef .tc main_v3) := keep2_v3 (W5 m ρ c)
    _ = W4 m ρ c (Proc.devRef .tc main_v3) := keep1_v3 (W4 m ρ c)
    _ = take100 (W3 m ρ c (Proc.devRef .tc main_v0)) (W3 m ρ c (Proc.devRef .tc main_arg9)) := run3 (W3 m ρ c)

theorem W7_v4 (c : Dev nD) :
    W7 m ρ c (Proc.devRef .tc main_v4)
      = take100 (W3 m ρ c (Proc.devRef .tc main_v0)) (W3 m ρ c (Proc.devRef .tc main_arg10)) :=
  calc W7 m ρ c (Proc.devRef .tc main_v4)
    _ = W6 m ρ c (Proc.devRef .tc main_v4) := keep3_v4 (W6 m ρ c)
    _ = W5 m ρ c (Proc.devRef .tc main_v4) := keep2_v4 (W5 m ρ c)
    _ = take100 (W4 m ρ c (Proc.devRef .tc main_v0)) (W4 m ρ c (Proc.devRef .tc main_arg10)) := run3_1 (W4 m ρ c)
    _ = take100 (W3 m ρ c (Proc.devRef .tc main_v0)) (W3 m ρ c (Proc.devRef .tc main_arg10)) :=
        congrArg₂ take100 (keep0_v0 (W3 m ρ c)) (keep0_arg10 (W3 m ρ c))

theorem W7_v5 (c : Dev nD) :
    W7 m ρ c (Proc.devRef .tc main_v5)
      = take50 (W3 m ρ c (Proc.devRef .tc main_v1)) (W3 m ρ c (Proc.devRef .tc main_arg11)) :=
  calc W7 m ρ c (Proc.devRef .tc main_v5)
    _ = W6 m ρ c (Proc.devRef .tc main_v5) := keep3_v5 (W6 m ρ c)
    _ = take50 (W5 m ρ c (Proc.devRef .tc main_v1)) (W5 m ρ c (Proc.devRef .tc main_arg11)) := run3_2 (W5 m ρ c)
    _ = take50 (W4 m ρ c (Proc.devRef .tc main_v1)) (W4 m ρ c (Proc.devRef .tc main_arg11)) :=
        congrArg₂ take50 (keep1_v1 (W4 m ρ c)) (keep1_arg11 (W4 m ρ c))
    _ = take50 (W3 m ρ c (Proc.devRef .tc main_v1)) (W3 m ρ c (Proc.devRef .tc main_arg11)) :=
        congrArg₂ take50 (keep0_v1 (W3 m ρ c)) (keep0_arg11 (W3 m ρ c))

theorem W7_v6 (c : Dev nD) :
    W7 m ρ c (Proc.devRef .tc main_v6)
      = take50 (W3 m ρ c (Proc.devRef .tc main_v2)) (W3 m ρ c (Proc.devRef .tc main_arg12)) :=
  calc W7 m ρ c (Proc.devRef .tc main_v6)
    _ = take50 (W6 m ρ c (Proc.devRef .tc main_v2)) (W6 m ρ c (Proc.devRef .tc main_arg12)) := run3_3 (W6 m ρ c)
    _ = take50 (W5 m ρ c (Proc.devRef .tc main_v2)) (W5 m ρ c (Proc.devRef .tc main_arg12)) :=
        congrArg₂ take50 (keep2_v2 (W5 m ρ c)) (keep2_arg12 (W5 m ρ c))
    _ = take50 (W4 m ρ c (Proc.devRef .tc main_v2)) (W4 m ρ c (Proc.devRef .tc main_arg12)) :=
        congrArg₂ take50 (keep1_v2 (W4 m ρ c)) (keep1_arg12 (W4 m ρ c))
    _ = take50 (W3 m ρ c (Proc.devRef .tc main_v2)) (W3 m ρ c (Proc.devRef .tc main_arg12)) :=
        congrArg₂ take50 (keep0_v2 (W3 m ρ c)) (keep0_arg12 (W3 m ρ c))

/-- No host operation writes the weight. -/
theorem W7_arg8 (c : Dev nD) :
    W7 m ρ c (Proc.devRef .tc main_arg8) = W3 m ρ c (Proc.devRef .tc main_arg8) :=
  calc W7 m ρ c (Proc.devRef .tc main_arg8)
    _ = W6 m ρ c (Proc.devRef .tc main_arg8) := keep3_arg8 (W6 m ρ c)
    _ = W5 m ρ c (Proc.devRef .tc main_arg8) := keep2_arg8 (W5 m ρ c)
    _ = W4 m ρ c (Proc.devRef .tc main_arg8) := keep1_arg8 (W4 m ρ c)
    _ = W3 m ρ c (Proc.devRef .tc main_arg8) := keep0_arg8 (W3 m ρ c)

end Cert.KernelIdeal.TakesRun

end
-- ==== Proof.Chain.lean ====
/- The kernel's result buffer, read back through @main's segments.

   The last region's output is the rectified product of the four gathered arrays side by side with the weight
   (HeadValue); each gathered array is a guarded row gather of a projected table (TakesRun), which is the plain gather
   where every index names a row (Takes); each projected table is a whole matrix product of two argument arrays
   (ProjValue); and the argument arrays reach every segment as launched. -/
import proofs.«410567_j58815282152044_2_alg».proof.Proof.Gen.KernelIdeal.Frame
import proofs.«410567_j58815282152044_2_alg».proof.Proof.Spec
import proofs.«410567_j58815282152044_2_alg».proof.Proof.ProjValue
import proofs.«410567_j58815282152044_2_alg».proof.Proof.HeadValue
import proofs.«410567_j58815282152044_2_alg».proof.Proof.Takes
import proofs.«410567_j58815282152044_2_alg».proof.Proof.TakesRun

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- No projection region writes an argument array: after the three of them it is as launched. -/
theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl
theorem W3_arg9 (c : Dev nD) : W3 m ρ c (Proc.devRef .tc main_arg9) = m ((c : Thread nD τ).loc main_arg9) :=
  calc W3 m ρ c (Proc.devRef .tc main_arg9)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl
theorem W3_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl
theorem W3_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl
theorem W3_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

/-- The first projected table, where the later regions find it: the product of the first feature table and its matrix. -/
theorem W3_v0 (c : Dev nD) : W3 m ρ c (Proc.devRef .tc main_v0)
    = Cert.Spec.proj100 (F := Ideal) (m ((c : Thread nD τ).loc main_arg0)) (m ((c : Thread nD τ).loc main_arg4)) :=
  calc W3 m ρ c (Proc.devRef .tc main_v0)
    _ = W2 m ρ c (Proc.devRef .tc main_v0) := W3_of_ne m ρ c main_v0 (by decide)
    _ = W1 m ρ c (Proc.devRef .tc main_v0) := W2_of_ne m ρ c main_v0 (by decide)
    _ = (dat0 (V0 m ρ) c).arrAt 2 cfg0.N := W1_arr m ρ c 2
    _ = Cert.Spec.proj100 (F := Ideal) (V0 m ρ c main_arg0) (V0 m ρ c main_arg4) := ProjValue.proj0 (V0 m ρ) c
    _ = Cert.Spec.proj100 (F := Ideal) (m ((c : Thread nD τ).loc main_arg0)) (m ((c : Thread nD τ).loc main_arg4)) := rfl

/-- The second region finds its two argument arrays as launched. -/
theorem V1_arg1 (c : Dev nD) : V1 m ρ c main_arg1 = m ((c : Thread nD τ).loc main_arg1) :=
  (W1_of_ne m ρ c main_arg1 (by decide)).trans rfl
theorem V1_arg5 (c : Dev nD) : V1 m ρ c main_arg5 = m ((c : Thread nD τ).loc main_arg5) :=
  (W1_of_ne m ρ c main_arg5 (by decide)).trans rfl

/-- The second projected table. -/
theorem W3_v1 (c : Dev nD) : W3 m ρ c (Proc.devRef .tc main_v1)
    = Cert.Spec.proj50 (F := Ideal) (m ((c : Thread nD τ).loc main_arg1)) (m ((c : Thread nD τ).loc main_arg5)) :=
  calc W3 m ρ c (Proc.devRef .tc main_v1)
    _ = W2 m ρ c (Proc.devRef .tc main_v1) := W3_of_ne m ρ c main_v1 (by decide)
    _ = (dat1 (V1 m ρ) c).arrAt 2 cfg1.N := W2_arr m ρ c 2
    _ = Cert.Spec.proj50 (F := Ideal) (V1 m ρ c main_arg1) (V1 m ρ c main_arg5) := ProjValue.proj1 (V1 m ρ) c
    _ = Cert.Spec.proj50 (F := Ideal) (m ((c : Thread nD τ).loc main_arg1)) (m ((c : Thread nD τ).loc main_arg5)) := by rw [V1_arg1, V1_arg5]

/-- The third region finds its two argument arrays as launched. -/
theorem V2_arg2 (c : Dev nD) : V2 m ρ c main_arg2 = m ((c : Thread nD τ).loc main_arg2) :=
  (W2_of_ne m ρ c main_arg2 (by decide)).trans ((W1_of_ne m ρ c main_arg2 (by decide)).trans rfl)
theorem V2_arg6 (c : Dev nD) : V2 m ρ c main_arg6 = m ((c : Thread nD τ).loc main_arg6) :=
  (W2_of_ne m ρ c main_arg6 (by decide)).trans ((W1_of_ne m ρ c main_arg6 (by decide)).trans rfl)

/-- The third projected table. -/
theorem W3_v2 (c : Dev nD) : W3 m ρ c (Proc.devRef .tc main_v2)
    = Cert.Spec.proj50 (F := Ideal) (m ((c : Thread nD τ).loc main_arg2)) (m ((c : Thread nD τ).loc main_arg6)) :=
  calc W3 m ρ c (Proc.devRef .tc main_v2)
    _ = (dat2 (V2 m ρ) c).arrAt 2 cfg2.N := W3_arr m ρ c 2
    _ = Cert.Spec.proj50 (F := Ideal) (V2 m ρ c main_arg2) (V2 m ρ c main_arg6) := ProjValue.proj2 (V2 m ρ) c
    _ = Cert.Spec.proj50 (F := Ideal) (m ((c : Thread nD τ).loc main_arg2)) (m ((c : Thread nD τ).loc main_arg6)) := by rw [V2_arg2, V2_arg6]

/-- THE RESULT: where every index names a row of its table, the result buffer after the run is the common value of the
    argument arrays. -/
theorem value (c : Dev nD)
    (h9 : Cert.Spec.InRows 100000#32 99999#32 (m ((c : Thread nD τ).loc main_arg9)))
    (h10 : Cert.Spec.InRows 100000#32 99999#32 (m ((c : Thread nD τ).loc main_arg10)))
    (h11 : Cert.Spec.InRows 50000#32 49999#32 (m ((c : Thread nD τ).loc main_arg11)))
    (h12 : Cert.Spec.InRows 50000#32 49999#32 (m ((c : Thread nD τ).loc main_arg12))) :
    W8 m ρ c (Proc.devRef .tc main_v7)
      = Cert.Spec.result (F := Ideal) (m ((c : Thread nD τ).loc main_arg0)) (m ((c : Thread nD τ).loc main_arg1)) (m ((c : Thread nD τ).loc main_arg2)) (m ((c : Thread nD τ).loc main_arg4))
          (m ((c : Thread nD τ).loc main_arg5)) (m ((c : Thread nD τ).loc main_arg6)) (m ((c : Thread nD τ).loc main_arg8)) (m ((c : Thread nD τ).loc main_arg9)) (m ((c : Thread nD τ).loc main_arg10))
          (m ((c : Thread nD τ).loc main_arg11)) (m ((c : Thread nD τ).loc main_arg12)) := by
  have e0 : W8 m ρ c (Proc.devRef .tc main_v7) = (dat3 (V7 m ρ) c).arrAt 5 cfg3.N := W8_arr m ρ c 5
  have e1 := HeadValue.out (V7 m ρ) c
  have t3 : V7 m ρ c main_v3 = Cert.Spec.pick100 (F := Ideal) (Cert.Spec.proj100 (m ((c : Thread nD τ).loc main_arg0)) (m ((c : Thread nD τ).loc main_arg4))) (Cert.Spec.rows 100000#32 (m ((c : Thread nD τ).loc main_arg9))) := by
    show W7 m ρ c (Proc.devRef .tc main_v3) = _
    rw [TakesRun.W7_v3, W3_v0, W3_arg9, Takes.take100_eq _ _ h9]
  have t4 : V7 m ρ c main_v4 = Cert.Spec.pick100 (F := Ideal) (Cert.Spec.proj100 (m ((c : Thread nD τ).loc main_arg0)) (m ((c : Thread nD τ).loc main_arg4))) (Cert.Spec.rows 100000#32 (m ((c : Thread nD τ).loc main_arg10))) := by
    show W7 m ρ c (Proc.devRef .tc main_v4) = _
    rw [TakesRun.W7_v4, W3_v0, W3_arg10, Takes.take100_eq _ _ h10]
  have t5 : V7 m ρ c main_v5 = Cert.Spec.pick50 (F := Ideal) (Cert.Spec.proj50 (m ((c : Thread nD τ).loc main_arg1)) (m ((c : Thread nD τ).loc main_arg5))) (Cert.Spec.rows 50000#32 (m ((c : Thread nD τ).loc main_arg11))) := by
    show W7 m ρ c (Proc.devRef .tc main_v5) = _
    rw [TakesRun.W7_v5, W3_v1, W3_arg11, Takes.take50_eq _ _ h11]
  have t6 : V7 m ρ c main_v6 = Cert.Spec.pick50 (F := Ideal) (Cert.Spec.proj50 (m ((c : Thread nD τ).loc main_arg2)) (m ((c : Thread nD τ).loc main_arg6))) (Cert.Spec.rows 50000#32 (m ((c : Thread nD τ).loc main_arg12))) := by
    show W7 m ρ c (Proc.devRef .tc main_v6) = _
    rw [TakesRun.W7_v6, W3_v2, W3_arg12, Takes.take50_eq _ _ h12]
  have t8 : V7 m ρ c main_arg8 = (m ((c : Thread nD τ).loc main_arg8)) := by
    show W7 m ρ c (Proc.devRef .tc main_arg8) = _
    rw [TakesRun.W7_arg8, W3_arg8]
  rw [e0, e1, t3, t4, t5, t6, t8]
  rfl

end Cert.KernelIdeal.Chain

end
-- ==== Proof.lean ====
/- The certificate's claim, assembled.

   Both idealized programs compute ONE function of the argument arrays (Cert.Spec.result): three feature tables
   projected to 64 columns, one row of a projected table gathered per edge and index array, the four gathered rows laid
   side by side, multiplied by the weight and rectified. The reference is that function by its own text (RefRun). The
   kernel computes the projections and the last product block by block (ProjValue, HeadValue) and guards each gather
   against an index outside its table (Takes, TakesRun); under the precondition every index names a row (PreDecode), so
   the guard never fires and the kernel's result is the same function (Chain). The three frames are the generated ones
   and the reference's run; the idealization rewrote nothing. -/
import proofs.«410567_j58815282152044_2_alg».proof.Defs
import proofs.«410567_j58815282152044_2_alg».proof.Proof.Gen.Kernel
import proofs.«410567_j58815282152044_2_alg».proof.Proof.Gen.Kernel.Skeleton
import proofs.«410567_j58815282152044_2_alg».proof.Proof.Gen.Kernel.Launch
import proofs.«410567_j58815282152044_2_alg».proof.Proof.Gen.Kernel.Points
import proofs.«410567_j58815282152044_2_alg».proof.Proof.Gen.Kernel.Frame
import proofs.«410567_j58815282152044_2_alg».proof.Proof.Gen.KernelIdeal
import proofs.«410567_j58815282152044_2_alg».proof.Proof.Gen.KernelIdeal.Skeleton
import proofs.«410567_j58815282152044_2_alg».proof.Proof.Gen.KernelIdeal.Launch
import proofs.«410567_j58815282152044_2_alg».proof.Proof.Gen.KernelIdeal.Points
import proofs.«410567_j58815282152044_2_alg».proof.Proof.Gen.KernelIdeal.Frame
import proofs.«410567_j58815282152044_2_alg».proof.Proof.Gen.ReferenceIdeal
import proofs.«410567_j58815282152044_2_alg».proof.Proof.Gen.Pre_finite_inputs
import proofs.«410567_j58815282152044_2_alg».proof.Proof.Spec
import proofs.«410567_j58815282152044_2_alg».proof.Proof.KernelRun
import proofs.«410567_j58815282152044_2_alg».proof.Proof.RefRun
import proofs.«410567_j58815282152044_2_alg».proof.Proof.PreDecode
import proofs.«410567_j58815282152044_2_alg».proof.Proof.Chain
import Idealize.ShloMosaic.Adequacy
import Idealize.ShloMosaic.Init

noncomputable section

namespace Cert.Proof

open Idealize.ShloMosaic Idealize.SL.Sem

/-- The two idealized programs end with equal results: the kernel's run with its result named, read back as the common
    value under the index-range facts the precondition gives; the reference's run, which is that value by its text, with
    its arguments replaced by the kernel's (the two memories agree on them). -/
theorem algebraic : Cert.algebraic_KernelIdeal_ReferenceIdeal := fun m ρ m' ρ' hpre hagree =>
  ⟨fun c => Cert.Spec.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
   (θ_run Cert.KernelIdeal.defs _ _).mono
      (fun r h c => ⟨(h c).1.trans (Cert.KernelIdeal.Chain.value m ρ c (Cert.PreDecode.inRows m hpre c).1
          (Cert.PreDecode.inRows m hpre c).2.1 (Cert.PreDecode.inRows m hpre c).2.2.1
          (Cert.PreDecode.inRows m hpre c).2.2.2), (h c).2⟩)
      (Cert.KernelIdeal.GenP.run_named (F := Ideal) m ρ),
   (θ_run Cert.ReferenceIdeal.defs _ _).mono
      (fun r h c => ⟨by
          obtain ⟨a0, a1, a2, a3, a4, a5, a6, a7, a8, a9, a10, a11, a12⟩ := hagree c
          rw [(h c).1, a0, a1, a2, a4, a5, a6, a8, a9, a10, a11, a12], (h c).2⟩)
      (Cert.RefRun.run (F := Ideal) m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.RefRun.run (F := Ideal) m ρ),
    trivial,
    algebraic⟩

end Cert.Proof

end
